-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S257x512 : Shape := ⟨2, ![257, 512]⟩
abbrev S513x512 : Shape := ⟨2, ![513, 512]⟩
abbrev S513x256 : Shape := ⟨2, ![513, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S257x512 : S_.BroadcastsInDim S257x512 (![] : Fin 0 → Fin S257x512.rank)
  reducesTo_S257x512_S_d0_1 : S257x512.ReducesTo [0, 1] S_
  bcast_S_S513x512 : S_.BroadcastsInDim S513x512 (![] : Fin 0 → Fin S513x512.rank)
  reducesTo_S513x512_S_d0_1 : S513x512.ReducesTo [0, 1] S_
  bcast_S_S513x256 : S_.BroadcastsInDim S513x256 (![] : Fin 0 → Fin S513x256.rank)
  reducesTo_S513x256_S_d0_1 : S513x256.ReducesTo [0, 1] S_

variable [Facts]

def fn_part1 {F : FTy → Type} [FloatOps F] (main_v13 : IVec S_ 1) (main_v16 : IVec S513x256 1) : IVec S_ 1 :=
  let main_c_5 : IVec S_ 1 := constantI S_ 1 1#1
  let main_v17 : IVec S_ 1 := (fun x v => Host.reduce IntOp.andi x v reducesTo_S513x256_S_d0_1 h_S_) main_v16 main_c_5
  let main_v18 : IVec S_ 1 := andi main_v13 main_v17
  main_v18

def fn {F : FTy → Type} [FloatOps F] (main_arg0 : FVec F S16384x256 .f32) (main_arg1 : FVec F S257x512 .f32) (main_arg2 : FVec F S513x512 .f32) (main_arg3 : FVec F S513x256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S257x512 .f32 := Host.absf main_arg1
  let main_cst_0 : FVec F S_ .f32 := constant S_ .f32 0x7F800000#32
  let main_v5 : FVec F S257x512 .f32 := broadcastInDim S257x512 ![] bcast_S_S257x512 main_cst_0
  let main_v6 : IVec S257x512 1 := cmpf .olt main_v4 main_v5
  let main_c_1 : IVec S_ 1 := constantI S_ 1 1#1
  let main_v7 : IVec S_ 1 := (fun x v => Host.reduce IntOp.andi x v reducesTo_S257x512_S_d0_1 h_S_) main_v6 main_c_1
  let main_v8 : IVec S_ 1 := andi main_v3 main_v7
  let main_v9 : FVec F S513x512 .f32 := Host.absf main_arg2
  let main_cst_2 : FVec F S_ .f32 := constant S_ .f32 0x7F800000#32
  let main_v10 : FVec F S513x512 .f32 := broadcastInDim S513x512 ![] bcast_S_S513x512 main_cst_2
  let main_v11 : IVec S513x512 1 := cmpf .olt main_v9 main_v10
  let main_c_3 : IVec S_ 1 := constantI S_ 1 1#1
  let main_v12 : IVec S_ 1 := (fun x v => Host.reduce IntOp.andi x v reducesTo_S513x512_S_d0_1 h_S_) main_v11 main_c_3
  let main_v13 : IVec S_ 1 := andi main_v8 main_v12
  let main_v14 : FVec F S513x256 .f32 := Host.absf main_arg3
  let main_cst_4 : FVec F S_ .f32 := constant S_ .f32 0x7F800000#32
  let main_v15 : FVec F S513x256 .f32 := broadcastInDim S513x256 ![] bcast_S_S513x256 main_cst_4
  let main_v16 : IVec S513x256 1 := cmpf .olt main_v14 main_v15
  fn_part1 (F := F) main_v13 main_v16
-- ==== Kernel.lean ====
abbrev S16384x256 : Shape := ⟨2, ![16384, 256]⟩
abbrev S257x512 : Shape := ⟨2, ![257, 512]⟩
abbrev S513x512 : Shape := ⟨2, ![513, 512]⟩
abbrev S513x256 : Shape := ⟨2, ![513, 256]⟩
abbrev S16384x128 : Shape := ⟨2, ![16384, 128]⟩
abbrev S2048x256 : Shape := ⟨2, ![2048, 256]⟩
abbrev S2048x128 : Shape := ⟨2, ![2048, 128]⟩
abbrev S256x512 : Shape := ⟨2, ![256, 512]⟩
abbrev S512x512 : Shape := ⟨2, ![512, 512]⟩
abbrev S512x256 : Shape := ⟨2, ![512, 256]⟩
abbrev S1x512 : Shape := ⟨2, ![1, 512]⟩
abbrev S1x256 : Shape := ⟨2, ![1, 256]⟩
abbrev S1024x256 : Shape := ⟨2, ![1024, 256]⟩
abbrev S1024x512 : Shape := ⟨2, ![1024, 512]⟩
abbrev S1024x128 : Shape := ⟨2, ![1024, 128]⟩

abbrev nBuf : Space → Nat
  | .hbm => 6
  | .vmem => 12
  | .smem => 0
  | _ => 0

abbrev bufTy : (tb : Table) → Fin (tcTables nBuf tb) → BufTy
  | .hbm, ⟨0, _⟩ => ⟨S16384x256, .f32⟩
  | .hbm, ⟨1, _⟩ => ⟨S257x512, .f32⟩
  | .hbm, ⟨2, _⟩ => ⟨S513x512, .f32⟩
  | .hbm, ⟨3, _⟩ => ⟨S513x256, .f32⟩
  | .hbm, ⟨4, _⟩ => ⟨S16384x128, .f32⟩
  | .hbm, ⟨5, _⟩ => ⟨S16384x128, .f32⟩
  | .local _ .vmem, ⟨0, _⟩ => ⟨S2048x256, .f32⟩
  | .local _ .vmem, ⟨1, _⟩ => ⟨S2048x256, .f32⟩
  | .local _ .vmem, ⟨2, _⟩ => ⟨S257x512, .f32⟩
  | .local _ .vmem, ⟨3, _⟩ => ⟨S513x512, .f32⟩
  | .local _ .vmem, ⟨4, _⟩ => ⟨S513x256, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S256x512, .bf16⟩
  | .local _ .vmem, ⟨10, _⟩ => ⟨S512x512, .bf16⟩
  | .local _ .vmem, ⟨11, _⟩ => ⟨S512x256, .bf16⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S257x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S513x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S513x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S257x512_S256x512_0_0 : ∀ a, (![0, 0] : Fin 2 → Nat) a + S256x512.size a ≤ S257x512.size a
  h_S256x512 : 0 < S256x512.numel
  bitsLt_bf16_f32 : FTy.bits .bf16 < FTy.bits .f32
  inb_S256x512_S256x512_0_0 : ∀ a, (![0, 0] : Fin 2 → Nat) a + S256x512.size a ≤ S256x512.size a
  shapeCasts_S256x512_S256x512 : S256x512.ShapeCasts S256x512
  packedbf16_S256x512_S256x512_0_0 : (Rect.unit (s := S256x512) ![0, 0] S256x512.size inb_S256x512_S256x512_0_0).PackedRows (EltTy.packing .bf16)
  inb_S513x512_S512x512_0_0 : ∀ a, (![0, 0] : Fin 2 → Nat) a + S512x512.size a ≤ S513x512.size a
  h_S512x512 : 0 < S512x512.numel
  inb_S512x512_S512x512_0_0 : ∀ a, (![0, 0] : Fin 2 → Nat) a + S512x512.size a ≤ S512x512.size a
  shapeCasts_S512x512_S512x512 : S512x512.ShapeCasts S512x512
  packedbf16_S512x512_S512x512_0_0 : (Rect.unit (s := S512x512) ![0, 0] S512x512.size inb_S512x512_S512x512_0_0).PackedRows (EltTy.packing .bf16)
  inb_S513x256_S512x256_0_0 : ∀ a, (![0, 0] : Fin 2 → Nat) a + S512x256.size a ≤ S513x256.size a
  h_S512x256 : 0 < S512x256.numel
  inb_S512x256_S512x256_0_0 : ∀ a, (![0, 0] : Fin 2 → Nat) a + S512x256.size a ≤ S512x256.size a
  shapeCasts_S512x256_S512x256 : S512x256.ShapeCasts S512x256
  packedbf16_S512x256_S512x256_0_0 : (Rect.unit (s := S512x256) ![0, 0] S512x256.size inb_S512x256_S512x256_0_0).PackedRows (EltTy.packing .bf16)
  inb_S257x512_S1x512_256_0 : ∀ a, (![256, 0] : Fin 2 → Nat) a + S1x512.size a ≤ S257x512.size a
  h_S1x512 : 0 < S1x512.numel
  inb_S513x512_S1x512_512_0 : ∀ a, (![512, 0] : Fin 2 → Nat) a + S1x512.size a ≤ S513x512.size a
  inb_S513x256_S1x256_512_0 : ∀ a, (![512, 0] : Fin 2 → Nat) a + S1x256.size a ≤ S513x256.size a
  h_S1x256 : 0 < S1x256.numel
  inb_S2048x256_S1024x256_0_0 : ∀ a, (![0, 0] : Fin 2 → Nat) a + S1024x256.size a ≤ S2048x256.size a
  h_S1024x256 : 0 < S1024x256.numel
  broadcasts_S1x512_S1024x512 : S1x512.Broadcasts S1024x512
  broadcasts_S1x256_S1024x256 : S1x256.Broadcasts S1024x256
  slices_S1024x256_o0_0_S1024x128 : S1024x256.Slices ![0, 0] S1024x128
  inb_S2048x128_S1024x128_0_0 : ∀ a, (![0, 0] : Fin 2 → Nat) a + S1024x128.size a ≤ S2048x128.size a
  h_S1024x128 : 0 < S1024x128.numel
  slices_S1024x256_o0_128_S1024x128 : S1024x256.Slices ![0, 128] S1024x128
  inb_S2048x256_S1024x256_1024_0 : ∀ a, (![1024, 0] : Fin 2 → Nat) a + S1024x256.size a ≤ S2048x256.size a
  inb_S2048x128_S1024x128_1024_0 : ∀ a, (![1024, 0] : Fin 2 → Nat) a + S1024x128.size a ≤ S2048x128.size a
  dot_S1024x256_S256x512_S1024x512_1_0_0_1_n_n_wf : DotDims.WF S1024x256 S256x512 S1024x512 [1] [0] [0] [1] [] []
  dot_S1024x512_S512x512_S1024x512_1_0_0_1_n_n_wf : DotDims.WF S1024x512 S512x512 S1024x512 [1] [0] [0] [1] [] []
  dot_S1024x512_S512x256_S1024x256_1_0_0_1_n_n_wf : DotDims.WF S1024x512 S512x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S16384x256.size a
  hwx0_0 : ∀ i : grid0.Coords, EltTy.bits .f32 = 32 ∨ (Rect.block (s := S16384x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S257x512.size a ≤ S257x512.size a
  hwx0_1 : ∀ i : grid0.Coords, EltTy.bits .f32 = 32 ∨ (Rect.block (s := S257x512) S257x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S513x512.size a ≤ S513x512.size a
  hwx0_2 : ∀ i : grid0.Coords, EltTy.bits .f32 = 32 ∨ (Rect.block (s := S513x512) S513x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S513x256.size a ≤ S513x256.size a
  hwx0_3 : ∀ i : grid0.Coords, EltTy.bits .f32 = 32 ∨ (Rect.block (s := S513x256) S513x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S16384x128.size a
  hwx0_4 : ∀ i : grid0.Coords, EltTy.bits .f32 = 32 ∨ (Rect.block (s := S16384x128) S2048x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x128.size a ≤ S16384x128.size a
  hwx0_5 : ∀ i : grid0.Coords, EltTy.bits .f32 = 32 ∨ (Rect.block (s := S16384x128) S2048x128.size (cc0_transform_5 i) (hinb0_5 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S257x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S513x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S513x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S2048x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S2048x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x256 : Shape := ⟨2, ![16384, 256]⟩
abbrev S257x512 : Shape := ⟨2, ![257, 512]⟩
abbrev S513x512 : Shape := ⟨2, ![513, 512]⟩
abbrev S513x256 : Shape := ⟨2, ![513, 256]⟩
abbrev S16384x128 : Shape := ⟨2, ![16384, 128]⟩
abbrev S512x256 : Shape := ⟨2, ![512, 256]⟩
abbrev S256x512 : Shape := ⟨2, ![256, 512]⟩
abbrev S512x512 : Shape := ⟨2, ![512, 512]⟩
abbrev S1x512 : Shape := ⟨2, ![1, 512]⟩
abbrev S1x256 : Shape := ⟨2, ![1, 256]⟩

abbrev nBuf : Space → Nat
  | .hbm => 7
  | .vmem => 7
  | .smem => 0
  | _ => 0

abbrev bufTy : (tb : Table) → Fin (tcTables nBuf tb) → BufTy
  | .hbm, ⟨0, _⟩ => ⟨S16384x256, .f32⟩
  | .hbm, ⟨1, _⟩ => ⟨S257x512, .f32⟩
  | .hbm, ⟨2, _⟩ => ⟨S513x512, .f32⟩
  | .hbm, ⟨3, _⟩ => ⟨S513x256, .f32⟩
  | .hbm, ⟨4, _⟩ => ⟨S16384x256, .f32⟩
  | .hbm, ⟨5, _⟩ => ⟨S16384x128, .f32⟩
  | .hbm, ⟨6, _⟩ => ⟨S16384x128, .f32⟩
  | .local _ .vmem, ⟨0, _⟩ => ⟨S512x256, .f32⟩
  | .local _ .vmem, ⟨1, _⟩ => ⟨S512x256, .f32⟩
  | .local _ .vmem, ⟨2, _⟩ => ⟨S257x512, .f32⟩
  | .local _ .vmem, ⟨3, _⟩ => ⟨S513x512, .f32⟩
  | .local _ .vmem, ⟨4, _⟩ => ⟨S513x256, .f32⟩
  | .local _ .vmem, ⟨5, _⟩ => ⟨S512x256, .f32⟩
  | .local _ .vmem, ⟨6, _⟩ => ⟨S512x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S257x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S513x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S513x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S16384x256_S16384x128_0_0 : S16384x256.Slices ![0, 0] S16384x128
  slices_S16384x256_S16384x128_0_128 : S16384x256.Slices ![0, 128] S16384x128
  inb_S512x256_S512x256_0_0 : ∀ a, (![0, 0] : Fin 2 → Nat) a + S512x256.size a ≤ S512x256.size a
  h_S512x256 : 0 < S512x256.numel
  inb_S257x512_S256x512_0_0 : ∀ a, (![0, 0] : Fin 2 → Nat) a + S256x512.size a ≤ S257x512.size a
  h_S256x512 : 0 < S256x512.numel
  inb_S257x512_S1x512_256_0 : ∀ a, (![256, 0] : Fin 2 → Nat) a + S1x512.size a ≤ S257x512.size a
  h_S1x512 : 0 < S1x512.numel
  broadcasts_S1x512_S512x512 : S1x512.Broadcasts S512x512
  inb_S513x512_S512x512_0_0 : ∀ a, (![0, 0] : Fin 2 → Nat) a + S512x512.size a ≤ S513x512.size a
  h_S512x512 : 0 < S512x512.numel
  inb_S513x512_S1x512_512_0 : ∀ a, (![512, 0] : Fin 2 → Nat) a + S1x512.size a ≤ S513x512.size a
  inb_S513x256_S512x256_0_0 : ∀ a, (![0, 0] : Fin 2 → Nat) a + S512x256.size a ≤ S513x256.size a
  inb_S513x256_S1x256_512_0 : ∀ a, (![512, 0] : Fin 2 → Nat) a + S1x256.size a ≤ S513x256.size a
  h_S1x256 : 0 < S1x256.numel
  broadcasts_S1x256_S512x256 : S1x256.Broadcasts S512x256
  iota_S512x256_d1_w32 : S512x256.Iotas .tc 32 [1]
  dot_S512x256_S256x512_S512x512_1_0_0_1_n_n_wf : DotDims.WF S512x256 S256x512 S512x512 [1] [0] [0] [1] [] []
  dot_S512x512_S512x512_S512x512_1_0_0_1_n_n_wf : DotDims.WF S512x512 S512x512 S512x512 [1] [0] [0] [1] [] []
  dot_S512x512_S512x256_S512x256_1_0_0_1_n_n_wf : DotDims.WF S512x512 S512x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S16384x256.size a
  hwx0_0 : ∀ i : grid0.Coords, EltTy.bits .f32 = 32 ∨ (Rect.block (s := S16384x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S257x512.size a ≤ S257x512.size a
  hwx0_1 : ∀ i : grid0.Coords, EltTy.bits .f32 = 32 ∨ (Rect.block (s := S257x512) S257x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S513x512.size a ≤ S513x512.size a
  hwx0_2 : ∀ i : grid0.Coords, EltTy.bits .f32 = 32 ∨ (Rect.block (s := S513x512) S513x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S513x256.size a ≤ S513x256.size a
  hwx0_3 : ∀ i : grid0.Coords, EltTy.bits .f32 = 32 ∨ (Rect.block (s := S513x256) S513x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S16384x256.size a
  hwx0_4 : ∀ i : grid0.Coords, EltTy.bits .f32 = 32 ∨ (Rect.block (s := S16384x256) S512x256.size (cc0_transform_4 i) (hinb0_4 i)).WholeWords (EltTy.packing .f32)

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S257x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S513x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S513x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0) S512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== Proof.KernelPieces.lean ====
import proofs.«114963_g2000406044886496_pallasbulk_952_15_alg».proof.Proof.Gen.KernelIdeal.Frame
import Idealize.ShloMosaic.Lib.Pipeline.Value

set_option maxRecDepth 16384

noncomputable section

/-!
  What one grid point leaves in the two output blocks and in the three weight buffers, as named terms over the
  point's input blocks.

  The body handles its 2048 rows in two halves of 1024. Each half is the same three-layer expression of its rows of the
  state block, of the three bias rows (the last row of each packed matrix) and of the three weight buffers. At the
  first point of each core's run the weight buffers are first filled with the weight rows of the packed matrices; at
  the other points they are read as the point before left them. Either way a point's two output blocks are one
  function of its input blocks and of the weight buffers' contents when the halves are computed.
-/

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The weight rows of the packed first-layer matrix, as the body casts them. -/
def castW1 (x1 : Vec F S257x512 .f32) : Vec F S256x512 .bf16 :=
  k0_pay5 (View.ld x1 (Rect.unit (s := S257x512) ![0, 0] S256x512.size inb_S257x512_S256x512_0_0))
/-- The weight rows of the packed second-layer matrix, as the body casts them. -/
def castW2 (x2 : Vec F S513x512 .f32) : Vec F S512x512 .bf16 :=
  k0_pay6 (View.ld x2 (Rect.unit (s := S513x512) ![0, 0] S512x512.size inb_S513x512_S512x512_0_0))
/-- The weight rows of the packed head matrix, as the body casts them. -/
def castW3 (x3 : Vec F S513x256 .f32) : Vec F S512x256 .bf16 :=
  k0_pay7 (View.ld x3 (Rect.unit (s := S513x256) ![0, 0] S512x256.size inb_S513x256_S512x256_0_0))

/-- The mean block of a point: rows 1024 … 2047 by the second half's expression, rows 0 … 1023 by the first half's,
    over weight buffers holding `s0`, `s1`, `s2`. -/
def muBlock (x0 : Vec F S2048x256 .f32) (x1 : Vec F S257x512 .f32) (x2 : Vec F S513x512 .f32) (x3 : Vec F S513x256 .f32)
    (s0 : Vec F S256x512 .bf16) (s1 : Vec F S512x512 .bf16) (s2 : Vec F S512x256 .bf16) : Vec F S2048x128 .f32 :=
  View.canon
    [⟨Rect.unit (s := S2048x128) ![1024, 0] S1024x128.size inb_S2048x128_S1024x128_1024_0,
        k0_pay3 (k0_pay8 (View.ld x1 (Rect.unit (s := S257x512) ![256, 0] S1x512.size inb_S257x512_S1x512_256_0)))
          (k0_pay9 (View.ld x2 (Rect.unit (s := S513x512) ![512, 0] S1x512.size inb_S513x512_S1x512_512_0)))
          (View.ld x3 (Rect.unit (s := S513x256) ![512, 0] S1x256.size inb_S513x256_S1x256_512_0))
          (View.ld x0 (Rect.unit (s := S2048x256) ![1024, 0] S1024x256.size inb_S2048x256_S1024x256_1024_0)) s0 s1 s2⟩,
      ⟨Rect.unit (s := S2048x128) ![0, 0] S1024x128.size inb_S2048x128_S1024x128_0_0,
        k0_pay11 (View.ld x1 (Rect.unit (s := S257x512) ![256, 0] S1x512.size inb_S257x512_S1x512_256_0))
          (View.ld x2 (Rect.unit (s := S513x512) ![512, 0] S1x512.size inb_S513x512_S1x512_512_0))
          (View.ld x3 (Rect.unit (s := S513x256) ![512, 0] S1x256.size inb_S513x256_S1x256_512_0))
          (View.ld x0 (Rect.unit (s := S2048x256) ![0, 0] S1024x256.size inb_S2048x256_S1024x256_0_0)) s0 s1 s2⟩]

/-- The log-deviation block of a point, the same way. -/
def lsBlock (x0 : Vec F S2048x256 .f32) (x1 : Vec F S257x512 .f32) (x2 : Vec F S513x512 .f32) (x3 : Vec F S513x256 .f32)
    (s0 : Vec F S256x512 .bf16) (s1 : Vec F S512x512 .bf16) (s2 : Vec F S512x256 .bf16) : Vec F S2048x128 .f32 :=
  View.canon
    [⟨Rect.unit (s := S2048x128) ![1024, 0] S1024x128.size inb_S2048x128_S1024x128_1024_0,
        k0_pay4 (k0_pay8 (View.ld x1 (Rect.unit (s := S257x512) ![256, 0] S1x512.size inb_S257x512_S1x512_256_0)))
          (k0_pay9 (View.ld x2 (Rect.unit (s := S513x512) ![512, 0] S1x512.size inb_S513x512_S1x512_512_0)))
          (View.ld x3 (Rect.unit (s := S513x256) ![512, 0] S1x256.size inb_S513x256_S1x256_512_0))
          (View.ld x0 (Rect.unit (s := S2048x256) ![1024, 0] S1024x256.size inb_S2048x256_S1024x256_1024_0)) s0 s1 s2⟩,
      ⟨Rect.unit (s := S2048x128) ![0, 0] S1024x128.size inb_S2048x128_S1024x128_0_0,
        k0_pay1
          (k0_pay12 (View.ld x1 (Rect.unit (s := S257x512) ![256, 0] S1x512.size inb_S257x512_S1x512_256_0))
            (View.ld x2 (Rect.unit (s := S513x512) ![512, 0] S1x512.size inb_S513x512_S1x512_512_0))
            (View.ld x3 (Rect.unit (s := S513x256) ![512, 0] S1x256.size inb_S513x256_S1x256_512_0))
            (View.ld x0 (Rect.unit (s := S2048x256) ![0, 0] S1024x256.size inb_S2048x256_S1024x256_0_0)) s0 s1 s2)
          (Scalar.ofBits .f32 0xC1A00000#32) (Scalar.ofBits .f32 0x40000000#32)⟩]

theorem hz2 : (![0, 0] : Fin 2 → Nat) = fun _ => 0 := funext fun a => by fin_cases a <;> rfl

/-- At a point that fills the weight buffers, the first one ends at the cast weight rows. -/
theorem sout0_A_0_eq (c : Dev nD) (i : grid0.Coords) (arg2 : Memref sig .tc .vmem S2048x256 .f32) (harg2 : arg2.IsWhole) (arg3 : Memref sig .tc .vmem S257x512 .f32) (harg3 : arg3.IsWhole) (arg4 : Memref sig .tc .vmem S513x512 .f32) (harg4 : arg4.IsWhole) (arg5 : Memref sig .tc .vmem S513x256 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S256x512 .bf16) (harg8 : arg8.IsWhole) (arg9 : Memref sig .tc .vmem S512x512 .bf16) (harg9 : arg9.IsWhole) (arg10 : Memref sig .tc .vmem S512x256 .bf16) (harg10 : arg10.IsWhole) (hc0 : cond0_0 i) (x0 : Vec F S2048x256 .f32) (x1 : Vec F S257x512 .f32) (x2 : Vec F S513x512 .f32) (x3 : Vec F S513x256 .f32) :
    sout0_A_0 c i arg2 harg2 arg3 harg3 arg4 harg4 arg5 harg5 arg6 harg6 arg7 harg7 arg8 harg8 arg9 harg9 arg10 harg10 hc0 x0 x1 x2 x3 = castW1 x1 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 x0 x1 x2 x3)]
  unfold kernelRun0_A
  dsimp only
  sl_unfold_words
  rw [View.canon_unit_zero hz2]
  simp only [View.readAt_eq_ld, harg3.read_unread]
  rfl

theorem sout0_A_1_eq (c : Dev nD) (i : grid0.Coords) (arg2 : Memref sig .tc .vmem S2048x256 .f32) (harg2 : arg2.IsWhole) (arg3 : Memref sig .tc .vmem S257x512 .f32) (harg3 : arg3.IsWhole) (arg4 : Memref sig .tc .vmem S513x512 .f32) (harg4 : arg4.IsWhole) (arg5 : Memref sig .tc .vmem S513x256 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S256x512 .bf16) (harg8 : arg8.IsWhole) (arg9 : Memref sig .tc .vmem S512x512 .bf16) (harg9 : arg9.IsWhole) (arg10 : Memref sig .tc .vmem S512x256 .bf16) (harg10 : arg10.IsWhole) (hc0 : cond0_0 i) (x0 : Vec F S2048x256 .f32) (x1 : Vec F S257x512 .f32) (x2 : Vec F S513x512 .f32) (x3 : Vec F S513x256 .f32) :
    sout0_A_1 c i arg2 harg2 arg3 harg3 arg4 harg4 arg5 harg5 arg6 harg6 arg7 harg7 arg8 harg8 arg9 harg9 arg10 harg10 hc0 x0 x1 x2 x3 = castW2 x2 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 x0 x1 x2 x3)]
  unfold kernelRun0_A
  dsimp only
  sl_unfold_words
  rw [View.canon_unit_zero hz2]
  simp only [View.readAt_eq_ld, harg4.read_unread]
  rfl

theorem sout0_A_2_eq (c : Dev nD) (i : grid0.Coords) (arg2 : Memref sig .tc .vmem S2048x256 .f32) (harg2 : arg2.IsWhole) (arg3 : Memref sig .tc .vmem S257x512 .f32) (harg3 : arg3.IsWhole) (arg4 : Memref sig .tc .vmem S513x512 .f32) (harg4 : arg4.IsWhole) (arg5 : Memref sig .tc .vmem S513x256 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S256x512 .bf16) (harg8 : arg8.IsWhole) (arg9 : Memref sig .tc .vmem S512x512 .bf16) (harg9 : arg9.IsWhole) (arg10 : Memref sig .tc .vmem S512x256 .bf16) (harg10 : arg10.IsWhole) (hc0 : cond0_0 i) (x0 : Vec F S2048x256 .f32) (x1 : Vec F S257x512 .f32) (x2 : Vec F S513x512 .f32) (x3 : Vec F S513x256 .f32) :
    sout0_A_2 c i arg2 harg2 arg3 harg3 arg4 harg4 arg5 harg5 arg6 harg6 arg7 harg7 arg8 harg8 arg9 harg9 arg10 harg10 hc0 x0 x1 x2 x3 = castW3 x3 := by
  unfold sout0_A_2
  rw [View.read_writes_eq_canon _ _ _ (scover0_A_2 c i arg2 harg2 arg3 harg3 arg4 harg4 arg5 harg5 arg6 harg6 arg7 harg7 arg8 harg8 arg9 harg9 arg10 harg10 hc0 x0 x1 x2 x3)]
  unfold kernelRun0_A
  dsimp only
  sl_unfold_words
  rw [View.canon_unit_zero hz2]
  simp only [View.readAt_eq_ld, harg5.read_unread]
  rfl

/-- At a point that fills the weight buffers, the mean block is computed over the freshly cast weights. -/
theorem out0_A_4_eq (c : Dev nD) (i : grid0.Coords) (arg2 : Memref sig .tc .vmem S2048x256 .f32) (harg2 : arg2.IsWhole) (arg3 : Memref sig .tc .vmem S257x512 .f32) (harg3 : arg3.IsWhole) (arg4 : Memref sig .tc .vmem S513x512 .f32) (harg4 : arg4.IsWhole) (arg5 : Memref sig .tc .vmem S513x256 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S256x512 .bf16) (harg8 : arg8.IsWhole) (arg9 : Memref sig .tc .vmem S512x512 .bf16) (harg9 : arg9.IsWhole) (arg10 : Memref sig .tc .vmem S512x256 .bf16) (harg10 : arg10.IsWhole) (hc0 : cond0_0 i) (x0 : Vec F S2048x256 .f32) (x1 : Vec F S257x512 .f32) (x2 : Vec F S513x512 .f32) (x3 : Vec F S513x256 .f32) :
    out0_A_4 c i arg2 harg2 arg3 harg3 arg4 harg4 arg5 harg5 arg6 harg6 arg7 harg7 arg8 harg8 arg9 harg9 arg10 harg10 hc0 x0 x1 x2 x3 = muBlock x0 x1 x2 x3 (castW1 x1) (castW2 x2) (castW3 x3) := by
  unfold out0_A_4
  rw [View.read_writes_eq_canon _ _ _ (cover0_A_4 c i arg2 harg2 arg3 harg3 arg4 harg4 arg5 harg5 arg6 harg6 arg7 harg7 arg8 harg8 arg9 harg9 arg10 harg10 hc0 x0 x1 x2 x3)]
  unfold kernelRun0_A
  dsimp only
  sl_unfold_words
  simp only [View.readAt_eq_ld, harg2.read_unread, harg3.read_unread, harg4.read_unread, harg5.read_unread,
    View.readCov_unit_zero (S := S256x512) _ hz2, View.readCov_unit_zero (S := S512x512) _ hz2,
    View.readCov_unit_zero (S := S512x256) _ hz2]
  rfl

theorem out0_A_5_eq (c : Dev nD) (i : grid0.Coords) (arg2 : Memref sig .tc .vmem S2048x256 .f32) (harg2 : arg2.IsWhole) (arg3 : Memref sig .tc .vmem S257x512 .f32) (harg3 : arg3.IsWhole) (arg4 : Memref sig .tc .vmem S513x512 .f32) (harg4 : arg4.IsWhole) (arg5 : Memref sig .tc .vmem S513x256 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S256x512 .bf16) (harg8 : arg8.IsWhole) (arg9 : Memref sig .tc .vmem S512x512 .bf16) (harg9 : arg9.IsWhole) (arg10 : Memref sig .tc .vmem S512x256 .bf16) (harg10 : arg10.IsWhole) (hc0 : cond0_0 i) (x0 : Vec F S2048x256 .f32) (x1 : Vec F S257x512 .f32) (x2 : Vec F S513x512 .f32) (x3 : Vec F S513x256 .f32) :
    out0_A_5 c i arg2 harg2 arg3 harg3 arg4 harg4 arg5 harg5 arg6 harg6 arg7 harg7 arg8 harg8 arg9 harg9 arg10 harg10 hc0 x0 x1 x2 x3 = lsBlock x0 x1 x2 x3 (castW1 x1) (castW2 x2) (castW3 x3) := by
  unfold out0_A_5
  rw [View.read_writes_eq_canon _ _ _ (cover0_A_5 c i arg2 harg2 arg3 harg3 arg4 harg4 arg5 harg5 arg6 harg6 arg7 harg7 arg8 harg8 arg9 harg9 arg10 harg10 hc0 x0 x1 x2 x3)]
  unfold kernelRun0_A
  dsimp only
  sl_unfold_words
  simp only [View.readAt_eq_ld, harg2.read_unread, harg3.read_unread, harg4.read_unread, harg5.read_unread,
    View.readCov_unit_zero (S := S256x512) _ hz2, View.readCov_unit_zero (S := S512x512) _ hz2,
    View.readCov_unit_zero (S := S512x256) _ hz2]
  rfl

/-- At the other points the blocks are computed over what the weight buffers held. -/
theorem out0_B_4_eq (c : Dev nD) (i : grid0.Coords) (arg2 : Memref sig .tc .vmem S2048x256 .f32) (harg2 : arg2.IsWhole) (arg3 : Memref sig .tc .vmem S257x512 .f32) (harg3 : arg3.IsWhole) (arg4 : Memref sig .tc .vmem S513x512 .f32) (harg4 : arg4.IsWhole) (arg5 : Memref sig .tc .vmem S513x256 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S256x512 .bf16) (harg8 : arg8.IsWhole) (arg9 : Memref sig .tc .vmem S512x512 .bf16) (harg9 : arg9.IsWhole) (arg10 : Memref sig .tc .vmem S512x256 .bf16) (harg10 : arg10.IsWhole) (hc0 : ¬cond0_0 i) (x0 : Vec F S2048x256 .f32) (x1 : Vec F S257x512 .f32) (x2 : Vec F S513x512 .f32) (x3 : Vec F S513x256 .f32) (xs0 : Vec F S256x512 .bf16) (xs1 : Vec F S512x512 .bf16) (xs2 : Vec F S512x256 .bf16) :
    out0_B_4 c i arg2 harg2 arg3 harg3 arg4 harg4 arg5 harg5 arg6 harg6 arg7 harg7 arg8 harg8 arg9 harg9 arg10 harg10 hc0 x0 x1 x2 x3 xs0 xs1 xs2 = muBlock x0 x1 x2 x3 xs0 xs1 xs2 := by
  unfold out0_B_4
  rw [View.read_writes_eq_canon _ _ _ (cover0_B_4 c i arg2 harg2 arg3 harg3 arg4 harg4 arg5 harg5 arg6 harg6 arg7 harg7 arg8 harg8 arg9 harg9 arg10 harg10 hc0 x0 x1 x2 x3 xs0 xs1 xs2)]
  unfold kernelRun0_B
  dsimp only
  sl_unfold_words
  simp only [View.readAt_eq_ld, harg2.read_unread, harg3.read_unread, harg4.read_unread, harg5.read_unread,
    harg8.read_unread, harg9.read_unread, harg10.read_unread,
    View.ld_unit_zero (S := S256x512) hz2, View.ld_unit_zero (S := S512x512) hz2, View.ld_unit_zero (S := S512x256) hz2]
  rfl

theorem out0_B_5_eq (c : Dev nD) (i : grid0.Coords) (arg2 : Memref sig .tc .vmem S2048x256 .f32) (harg2 : arg2.IsWhole) (arg3 : Memref sig .tc .vmem S257x512 .f32) (harg3 : arg3.IsWhole) (arg4 : Memref sig .tc .vmem S513x512 .f32) (harg4 : arg4.IsWhole) (arg5 : Memref sig .tc .vmem S513x256 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S256x512 .bf16) (harg8 : arg8.IsWhole) (arg9 : Memref sig .tc .vmem S512x512 .bf16) (harg9 : arg9.IsWhole) (arg10 : Memref sig .tc .vmem S512x256 .bf16) (harg10 : arg10.IsWhole) (hc0 : ¬cond0_0 i) (x0 : Vec F S2048x256 .f32) (x1 : Vec F S257x512 .f32) (x2 : Vec F S513x512 .f32) (x3 : Vec F S513x256 .f32) (xs0 : Vec F S256x512 .bf16) (xs1 : Vec F S512x512 .bf16) (xs2 : Vec F S512x256 .bf16) :
    out0_B_5 c i arg2 harg2 arg3 harg3 arg4 harg4 arg5 harg5 arg6 harg6 arg7 harg7 arg8 harg8 arg9 harg9 arg10 harg10 hc0 x0 x1 x2 x3 xs0 xs1 xs2 = lsBlock x0 x1 x2 x3 xs0 xs1 xs2 := by
  unfold out0_B_5
  rw [View.read_writes_eq_canon _ _ _ (cover0_B_5 c i arg2 harg2 arg3 harg3 arg4 harg4 arg5 harg5 arg6 harg6 arg7 harg7 arg8 harg8 arg9 harg9 arg10 harg10 hc0 x0 x1 x2 x3 xs0 xs1 xs2)]
  unfold kernelRun0_B
  dsimp only
  sl_unfold_words
  simp only [View.readAt_eq_ld, harg2.read_unread, harg3.read_unread, harg4.read_unread, harg5.read_unread,
    harg8.read_unread, harg9.read_unread, harg10.read_unread,
    View.ld_unit_zero (S := S256x512) hz2, View.ld_unit_zero (S := S512x512) hz2, View.ld_unit_zero (S := S512x256) hz2]
  rfl

end Cert.KernelIdeal.Body

end
-- ==== Proof.KernelPoints.lean ====
import proofs.«114963_g2000406044886496_pallasbulk_952_15_alg».proof.Proof.Gen.KernelIdeal.Value
import proofs.«114963_g2000406044886496_pallasbulk_952_15_alg».proof.Proof.KernelPieces

set_option maxRecDepth 16384

noncomputable section

/-!
  What every grid point leaves, over the ARGUMENT arrays.

  The three weight windows' block is the whole packed matrix at every point, so a point's weight blocks are the
  argument arrays themselves. The points run in order 0 … 7; points 0 and 4 (the first point of each core's share of
  the batch) fill the weight buffers with the cast weight rows, the others leave them alone. By induction on the point
  the buffers hold the cast weight rows after EVERY point, and so every point's two output blocks are the same function
  of its state block and of the three packed matrices.
-/

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

/-- The packed first-layer matrix as the region finds it. -/
abbrev w1Arr (c : Dev nD) : Vec F S257x512 .f32 := V m c main_arg1
/-- The packed second-layer matrix as the region finds it. -/
abbrev w2Arr (c : Dev nD) : Vec F S513x512 .f32 := V m c main_arg2
/-- The packed head matrix as the region finds it. -/
abbrev w3Arr (c : Dev nD) : Vec F S513x256 .f32 := V m c main_arg3
/-- The state block of point `t`. -/
abbrev stateBlk (c : Dev nD) (t : Fin cfg0.N) : Vec F S2048x256 .f32 := iblk m c 0 t

/-- The printed index maps over the grid: the state and output windows walk the batch one block per point, the weight
    windows stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The first weight window's block is the whole packed matrix. -/
theorem iblk1_eq (c : Dev nD) (t : Fin cfg0.N) : (iblk m c 1 t : Vec F S257x512 .f32) = w1Arr m c := by
  obtain ⟨-, -, e0, e1, -⟩ := idx_facts t
  funext y
  show V m c main_arg1 (((cfg0.win 1).blk t).view.emb y) = V m c main_arg1 y
  refine congrArg (V m c main_arg1) ?_
  funext a; apply Fin.ext
  match a with
  | ⟨0, _⟩ => show win0_1.index t (0 : Fin 2) * 257 + 1 * (y 0).val = (y 0).val; omega
  | ⟨1, _⟩ => show win0_1.index t (1 : Fin 2) * 512 + 1 * (y 1).val = (y 1).val; omega

theorem iblk2_eq (c : Dev nD) (t : Fin cfg0.N) : (iblk m c 2 t : Vec F S513x512 .f32) = w2Arr m c := by
  obtain ⟨-, -, -, -, e0, e1, -⟩ := idx_facts t
  funext y
  show V m c main_arg2 (((cfg0.win 2).blk t).view.emb y) = V m c main_arg2 y
  refine congrArg (V m c main_arg2) ?_
  funext a; apply Fin.ext
  match a with
  | ⟨0, _⟩ => show win0_2.index t (0 : Fin 2) * 513 + 1 * (y 0).val = (y 0).val; omega
  | ⟨1, _⟩ => show win0_2.index t (1 : Fin 2) * 512 + 1 * (y 1).val = (y 1).val; omega

theorem iblk3_eq (c : Dev nD) (t : Fin cfg0.N) : (iblk m c 3 t : Vec F S513x256 .f32) = w3Arr m c := by
  obtain ⟨-, -, -, -, -, -, e0, e1, -⟩ := idx_facts t
  funext y
  show V m c main_arg3 (((cfg0.win 3).blk t).view.emb y) = V m c main_arg3 y
  refine congrArg (V m c main_arg3) ?_
  funext a; apply Fin.ext
  match a with
  | ⟨0, _⟩ => show win0_3.index t (0 : Fin 2) * 513 + 1 * (y 0).val = (y 0).val; omega
  | ⟨1, _⟩ => show win0_3.index t (1 : Fin 2) * 256 + 1 * (y 1).val = (y 1).val; omega

/-- WHAT EVERY POINT LEAVES: the two output blocks computed from its state block and the packed matrices over the
    cast weight rows, and the weight buffers at the cast weight rows. -/
theorem point_eq (c : Dev nD) : ∀ (n : ℕ) (hn : n < cfg0.N), outsAt0 m c n hn =
    (muBlock (stateBlk m c ⟨n, hn⟩) (w1Arr m c) (w2Arr m c) (w3Arr m c) (castW1 (w1Arr m c)) (castW2 (w2Arr m c)) (castW3 (w3Arr m c)),
      lsBlock (stateBlk m c ⟨n, hn⟩) (w1Arr m c) (w2Arr m c) (w3Arr m c) (castW1 (w1Arr m c)) (castW2 (w2Arr m c)) (castW3 (w3Arr m c)),
      castW1 (w1Arr m c), castW2 (w2Arr m c), castW3 (w3Arr m c)) := by
  intro n
  induction n using Nat.strong_induction_on with
  | _ n ih =>
    intro hn
    have hN : n < 8 := lt_of_lt_of_eq hn (show cfg0.N = 8 from N_0)
    by_cases h0 : n % 4 = 0
    · refine (outsAt0_A m c ⟨n, hn⟩ h0).trans ?_
      rw [out0_A_4_eq c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) (ms0_5 (⟨n, hn⟩ : Fin cfg0.N)) (hs0_5 (⟨n, hn⟩ : Fin cfg0.N)) scM0_0 (Memref.isWhole_whole _) scM0_1 (Memref.isWhole_whole _) scM0_2 (Memref.isWhole_whole _) ((hcond0_0 ⟨n, hn⟩).mpr h0) (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)),
        out0_A_5_eq c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) (ms0_5 (⟨n, hn⟩ : Fin cfg0.N)) (hs0_5 (⟨n, hn⟩ : Fin cfg0.N)) scM0_0 (Memref.isWhole_whole _) scM0_1 (Memref.isWhole_whole _) scM0_2 (Memref.isWhole_whole _) ((hcond0_0 ⟨n, hn⟩).mpr h0) (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)),
        sout0_A_0_eq c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) (ms0_5 (⟨n, hn⟩ : Fin cfg0.N)) (hs0_5 (⟨n, hn⟩ : Fin cfg0.N)) scM0_0 (Memref.isWhole_whole _) scM0_1 (Memref.isWhole_whole _) scM0_2 (Memref.isWhole_whole _) ((hcond0_0 ⟨n, hn⟩).mpr h0) (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)),
        sout0_A_1_eq c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) (ms0_5 (⟨n, hn⟩ : Fin cfg0.N)) (hs0_5 (⟨n, hn⟩ : Fin cfg0.N)) scM0_0 (Memref.isWhole_whole _) scM0_1 (Memref.isWhole_whole _) scM0_2 (Memref.isWhole_whole _) ((hcond0_0 ⟨n, hn⟩).mpr h0) (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)),
        sout0_A_2_eq c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) (ms0_5 (⟨n, hn⟩ : Fin cfg0.N)) (hs0_5 (⟨n, hn⟩ : Fin cfg0.N)) scM0_0 (Memref.isWhole_whole _) scM0_1 (Memref.isWhole_whole _) scM0_2 (Memref.isWhole_whole _) ((hcond0_0 ⟨n, hn⟩).mpr h0) (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)),
        iblk1_eq m c ⟨n, hn⟩, iblk2_eq m c ⟨n, hn⟩, iblk3_eq m c ⟨n, hn⟩]
    · have hpos : n ≠ 0 := fun h => h0 (by rw [h])
      have ihp := ih (n - 1) (by omega) (Nat.lt_of_le_of_lt (Nat.sub_le _ _) hn)
      refine (outsAt0_B m c ⟨n, hn⟩ h0).trans ?_
      rw [show outsAt0 m c ((⟨n, hn⟩ : Fin cfg0.N).val - 1) (Nat.lt_of_le_of_lt (Nat.sub_le _ _) (⟨n, hn⟩ : Fin cfg0.N).isLt) = _ from ihp]
      dsimp only
      unfold sout0_B_0 sout0_B_1 sout0_B_2
      rw [out0_B_4_eq c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) (ms0_5 (⟨n, hn⟩ : Fin cfg0.N)) (hs0_5 (⟨n, hn⟩ : Fin cfg0.N)) scM0_0 (Memref.isWhole_whole _) scM0_1 (Memref.isWhole_whole _) scM0_2 (Memref.isWhole_whole _) (fun h => h0 ((hcond0_0 ⟨n, hn⟩).mp h)) (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)),
        out0_B_5_eq c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) (ms0_5 (⟨n, hn⟩ : Fin cfg0.N)) (hs0_5 (⟨n, hn⟩ : Fin cfg0.N)) scM0_0 (Memref.isWhole_whole _) scM0_1 (Memref.isWhole_whole _) scM0_2 (Memref.isWhole_whole _) (fun h => h0 ((hcond0_0 ⟨n, hn⟩).mp h)) (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)),
        iblk1_eq m c ⟨n, hn⟩, iblk2_eq m c ⟨n, hn⟩, iblk3_eq m c ⟨n, hn⟩]

end Cert.KernelIdeal.Body

end
-- ==== Proof.Spec.lean ====
/-
  The actor network as one function of the four argument arrays, index by index, on the extended reals.

  A packed weight matrix holds the layer's weights in all rows but the last and the bias in the last row. One state row
  `ξ` goes through two dense layers with `max(·, 0)` and then through the fused head; the first 128 head columns are
  the mean, the last 128 the log-deviation clamped to [-20, 2].
-/
import Idealize.ShloMosaic.Lib.ValueIdx
import Idealize.ShloMosaic.PureOps.Ideal.Laws

noncomputable section

namespace Cert.Actor

open Idealize.ShloMosaic Idealize.ShloMosaic.ValueIdx

/-- Column `j` of `ξ · W + b`: one dense layer on one row of `n` features. -/
def affine {n k : ℕ} (W : Fin n → Fin k → EReal) (b : Fin k → EReal) (ξ : Fin n → EReal) (j : Fin k) : EReal :=
  ∑ i : Fin n, ξ i * W i j + b j

/-- The network on one state row: dense, ReLU, dense, ReLU, fused head. -/
def net (W1 : Fin 256 → Fin 512 → EReal) (b1 : Fin 512 → EReal) (W2 : Fin 512 → Fin 512 → EReal) (b2 : Fin 512 → EReal)
    (W3 : Fin 512 → Fin 256 → EReal) (b3 : Fin 256 → EReal) (ξ : Fin 256 → EReal) (c : Fin 256) : EReal :=
  affine W3 b3 (fun k => max (affine W2 b2 (fun j => max (affine W1 b1 ξ j) 0) k) 0) c

abbrev XS : Shape := ⟨2, ![16384, 256]⟩
abbrev W1S : Shape := ⟨2, ![257, 512]⟩
abbrev W2S : Shape := ⟨2, ![513, 512]⟩
abbrev WHS : Shape := ⟨2, ![513, 256]⟩
abbrev OS : Shape := ⟨2, ![16384, 128]⟩

/-- The weight rows of a packed matrix with `n + 1` rows. -/
def wts {n k : ℕ} (w : FVec Ideal ⟨2, ![n + 1, k]⟩ .f32) (i : Fin n) (j : Fin k) : EReal := w (ix2 i.castSucc j)
/-- Its bias row. -/
def bias {n k : ℕ} (w : FVec Ideal ⟨2, ![n + 1, k]⟩ .f32) (j : Fin k) : EReal := w (ix2 (Fin.last n) j)

/-- The fused head of state row `r`, column `c`. -/
def headAt (x : FVec Ideal XS .f32) (w1 : FVec Ideal W1S .f32) (w2 : FVec Ideal W2S .f32) (wh : FVec Ideal WHS .f32)
    (r : Fin 16384) (c : Fin 256) : EReal :=
  net (wts (n := 256) w1) (bias (n := 256) w1) (wts (n := 512) w2) (bias (n := 512) w2) (wts (n := 512) wh) (bias (n := 512) wh)
    (fun i => x (ix2 r i)) c

/-- The clamp to [-20, 2], written with the two bounds' f32 words. -/
def clamp (v : EReal) : EReal := min (Ideal.ofBits .f32 0x40000000#32) (max (Ideal.ofBits .f32 0xC1A00000#32) v)

/-- The mean: head columns 0 … 127. -/
def mu (x : FVec Ideal XS .f32) (w1 : FVec Ideal W1S .f32) (w2 : FVec Ideal W2S .f32) (wh : FVec Ideal WHS .f32) :
    FVec Ideal OS .f32 := fun i =>
  headAt x w1 w2 wh ⟨(i 0).val, idx2_lt0 i⟩ ⟨(i 1).val, by have := idx2_lt1 i; omega⟩

/-- The log-deviation: head columns 128 … 255, clamped. -/
def ls (x : FVec Ideal XS .f32) (w1 : FVec Ideal W1S .f32) (w2 : FVec Ideal W2S .f32) (wh : FVec Ideal WHS .f32) :
    FVec Ideal OS .f32 := fun i =>
  clamp (headAt x w1 w2 wh ⟨(i 0).val, idx2_lt0 i⟩ ⟨128 + (i 1).val, by have := idx2_lt1 i; omega⟩)

theorem mu_apply (x : FVec Ideal XS .f32) (w1 : FVec Ideal W1S .f32) (w2 : FVec Ideal W2S .f32) (wh : FVec Ideal WHS .f32)
    (r : Fin 16384) (c : Fin 128) (c' : Fin 256) (hc : c'.val = c.val) :
    mu x w1 w2 wh (ix2 r c) = headAt x w1 w2 wh r c' := by
  have e : c' = ⟨c.val, Nat.lt_of_lt_of_le c.isLt (by decide)⟩ := Fin.ext hc
  rw [e]; rfl

theorem ls_apply (x : FVec Ideal XS .f32) (w1 : FVec Ideal W1S .f32) (w2 : FVec Ideal W2S .f32) (wh : FVec Ideal WHS .f32)
    (r : Fin 16384) (c : Fin 128) (c' : Fin 256) (hc : c'.val = 128 + c.val) :
    ls x w1 w2 wh (ix2 r c) = clamp (headAt x w1 w2 wh r c') := by
  have e : c' = ⟨128 + c.val, by have := c.isLt; omega⟩ := Fin.ext hc
  rw [e]; rfl

end Cert.Actor

end
-- ==== Proof.LibBlock.lean ====
/-
  General reading lemmas over any extents: a unit-stride box loaded from a matrix, read at an index; and a rows-by-columns
  matrix product into a zero accumulator, read at an index as the sum over the shared coordinate, for ANY dimension-number
  record that contracts the left operand's columns with the right operand's rows and has no batch axis.
-/
import Idealize.ShloMosaic.Lib.ValueLayout
import Idealize.ShloMosaic.Lib.Pipeline.FrameBody
import Idealize.ShloMosaic.PureOps.Ideal.Laws

noncomputable section

namespace Cert.LibBlock

open Idealize.ShloMosaic Idealize.ShloMosaic.ValueIdx

/-- A unit-stride `[m0, m1]` box at offset `off` of an `[n0, n1]` array reads, at `(p, q)`, the array at
    `(off 0 + p, off 1 + q)`. -/
theorem ld_unit2_apply {Val : EltTy → Type} {e : EltTy} {n0 n1 m0 m1 : ℕ} (X : (⟨2, ![n0, n1]⟩ : Shape).Idx → Val e)
    (off : Fin 2 → ℕ) (inb : ∀ a, off a + (⟨2, ![m0, m1]⟩ : Shape).size a ≤ (⟨2, ![n0, n1]⟩ : Shape).size a)
    (p : Fin m0) (q : Fin m1) (p' : Fin n0) (q' : Fin n1) (hp : p'.val = off 0 + p.val) (hq : q'.val = off 1 + q.val) :
    View.ld X (Rect.unit (s := ⟨2, ![n0, n1]⟩) off (⟨2, ![m0, m1]⟩ : Shape).size inb) (ix2 p q) = X (ix2 p' q') := by
  show X ((Rect.unit (s := ⟨2, ![n0, n1]⟩) off (⟨2, ![m0, m1]⟩ : Shape).size inb).idx (ix2 p q)) = X (ix2 p' q')
  congr 1
  funext a; apply Fin.ext
  match a with
  | ⟨0, _⟩ => show off 0 + 1 * p.val = p'.val; omega
  | ⟨1, _⟩ => show off 1 + 1 * q.val = q'.val; omega

section Dot

variable {sl sr so : Shape} (D : DotDims sl sr so)

/-- With no batch axis, the left operand's one free axis reads the result index's first coordinate. -/
theorem lhsIdx_val_free {a : Fin sl.rank} (hb : D.lhsBatch = []) (hn : D.lhsNonContracting = [a]) (j : so.Idx) (k : D.contr.Idx)
    (h0 : 0 < so.rank) : (D.lhsIdx j k a).val = (j ⟨0, h0⟩).val := by
  have hmem : a ∈ D.lhsNonContracting := by rw [hn]; exact List.mem_singleton.mpr rfl
  have hnb : a ∉ D.lhsBatch := by rw [hb]; exact List.not_mem_nil
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one free axis on the left, the right operand's one free axis reads the result index's second
    coordinate. -/
theorem rhsIdx_val_free {al : Fin sl.rank} {a : Fin sr.rank} (hb : D.lhsBatch = []) (hb' : D.rhsBatch = [])
    (hln : D.lhsNonContracting = [al]) (hn : D.rhsNonContracting = [a]) (j : so.Idx) (k : D.contr.Idx)
    (h1 : 1 < so.rank) : (D.rhsIdx j k a).val = (j ⟨1, h1⟩).val := by
  have hmem : a ∈ D.rhsNonContracting := by rw [hn]; exact List.mem_singleton.mpr rfl
  have hnb : a ∉ D.rhsBatch := by rw [hb']; exact List.not_mem_nil
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hln, hn])

end Dot

/-- A rows-by-columns product into the zero accumulator, read at `(a, b)`: `∑ c, A[a, c] · B[c, b]`. -/
theorem matmul_rc_apply {m k n : ℕ} {φ₁ φ₂ : FTy} (D : DotDims ⟨2, ![m, k]⟩ ⟨2, ![k, n]⟩ ⟨2, ![m, n]⟩)
    (hlc : D.lhsContracting = [1]) (hrc : D.rhsContracting = [0])
    (hln : D.lhsNonContracting = [0]) (hrn : D.rhsNonContracting = [1])
    (hlb : D.lhsBatch = []) (hrb : D.rhsBatch = [])
    (prec : Option ContractPrecision) (A : FVec Ideal ⟨2, ![m, k]⟩ φ₁) (B : FVec Ideal ⟨2, ![k, n]⟩ φ₂) (a : Fin m) (b : Fin n) :
    matmul D prec A B (constant ⟨2, ![m, n]⟩ .f32 0x00000000#32) (ix2 a b) = ∑ c : Fin k, A (ix2 a c) * B (ix2 c b) := by
  show FloatOps.matmul D prec A B (constant ⟨2, ![m, n]⟩ .f32 0x00000000#32) (ix2 a b) = _
  have hr : D.contr.rank = 1 := by rw [D.rank_contr, hlc]; rfl
  have hs : D.contr.size ⟨0, by omega⟩ = k := by
    have h := D.size_contr 0 (by rw [hlc]; exact Nat.one_pos)
    rw [h]; simp [hlc]
  rw [Ideal.matmul_constant_zero_apply, ← Equiv.sum_comp (contrEquiv1 D k hr hs).symm]
  refine Finset.sum_congr rfl fun c _ => ?_
  have hc := contrEquiv1_symm_val D k hr hs c
  have hl : D.lhsIdx (ix2 a b) ((contrEquiv1 D k hr hs).symm c) = ix2 a c := by
    funext ax; apply Fin.ext
    match ax with
    | ⟨0, _⟩ => exact lhsIdx_val_free D hlb hln _ _ Nat.zero_lt_two
    | ⟨1, _⟩ => exact (D.lhsIdx_val_of_single hlc _ _).trans hc
  have hrr : D.rhsIdx (ix2 a b) ((contrEquiv1 D k hr hs).symm c) = ix2 c b := by
    funext ax; apply Fin.ext
    match ax with
    | ⟨0, _⟩ => exact (D.rhsIdx_val_of_single hrc _ _).trans hc
    | ⟨1, _⟩ => exact rhsIdx_val_free D hlb hrb hln hrn _ _ Nat.one_lt_two
  rw [hl, hrr]

end Cert.LibBlock

end
-- ==== Proof.KernelPayload.lean ====
import proofs.«114963_g2000406044886496_pallasbulk_952_15_alg».proof.Proof.Gen.KernelIdeal.Skeleton
import proofs.«114963_g2000406044886496_pallasbulk_952_15_alg».proof.Proof.Spec
import proofs.«114963_g2000406044886496_pallasbulk_952_15_alg».proof.Proof.LibBlock
import Idealize.ShloMosaic.Lib.IdealHost

/-!
  The body's arithmetic read at an index, on the extended reals.

  A change of float format is the identity there, so each half's expression at row `p`, column `q` is the three-layer
  network of row `p` of the half's state rows: a matrix product into the zero accumulator is the sum over the shared
  coordinate, a one-row bias broadcast down the rows reads its one row, and `max(·, 0)` is taken entry by entry.
  The two output payloads cut columns 0 … 127 and 128 … 255 of that, the second clamped.
-/

noncomputable section

namespace Cert.KernelIdeal.Body

open Cert.KernelIdeal Cert.KernelIdeal.Gen Idealize.ShloMosaic Idealize.ShloMosaic.ValueIdx

/-- The first layer's product at `(a, b)`. -/
theorem mm1 (A : FVec Ideal S1024x256 .bf16) (B : FVec Ideal S256x512 .bf16) (a : Fin 1024) (b : Fin 512) :
    matmul dot_S1024x256_S256x512_S1024x512_1_0_0_1_n_n none A B (constant S1024x512 .f32 0x00000000#32) (ix2 a b)
      = ∑ c : Fin 256, A (ix2 a c) * B (ix2 c b) :=
  Cert.LibBlock.matmul_rc_apply dot_S1024x256_S256x512_S1024x512_1_0_0_1_n_n rfl rfl rfl rfl rfl rfl none A B a b

/-- The second layer's product at `(a, b)`. -/
theorem mm2 (A : FVec Ideal S1024x512 .bf16) (B : FVec Ideal S512x512 .bf16) (a : Fin 1024) (b : Fin 512) :
    matmul dot_S1024x512_S512x512_S1024x512_1_0_0_1_n_n none A B (constant S1024x512 .f32 0x00000000#32) (ix2 a b)
      = ∑ c : Fin 512, A (ix2 a c) * B (ix2 c b) :=
  Cert.LibBlock.matmul_rc_apply dot_S1024x512_S512x512_S1024x512_1_0_0_1_n_n rfl rfl rfl rfl rfl rfl none A B a b

/-- The head's product at `(a, b)`. -/
theorem mm3 (A : FVec Ideal S1024x512 .bf16) (B : FVec Ideal S512x256 .bf16) (a : Fin 1024) (b : Fin 256) :
    matmul dot_S1024x512_S512x256_S1024x256_1_0_0_1_n_n none A B (constant S1024x256 .f32 0x00000000#32) (ix2 a b)
      = ∑ c : Fin 512, A (ix2 a c) * B (ix2 c b) :=
  Cert.LibBlock.matmul_rc_apply dot_S1024x512_S512x256_S1024x256_1_0_0_1_n_n rfl rfl rfl rfl rfl rfl none A B a b

/-- The bf16 zero the body compares with is the number zero. -/
theorem zero_bf16 : (Scalar.ofBits (F := Ideal) .bf16 0x0000#16 : EReal) = 0 := Ideal.ofBits_zero_bf16

/-- The first half's head at row `p`, column `q`: the network of row `p`. -/
theorem pay10_apply (v3 v5 : FVec Ideal S1x512 .f32) (v7 : FVec Ideal S1x256 .f32) (v8 : FVec Ideal S1024x256 .f32) (v10 : FVec Ideal S256x512 .bf16) (v17 : FVec Ideal S512x512 .bf16) (v24 : FVec Ideal S512x256 .bf16) (p : Fin 1024) (q : Fin 256) :
    k0_pay10 (F := Ideal) v3 v5 v7 v8 v10 v17 v24 (ix2 p q) =
      Cert.Actor.net (fun i j => v10 (ix2 i j)) (fun j => v3 (ix2 (0 : Fin 1) j)) (fun i j => v17 (ix2 i j)) (fun j => v5 (ix2 (0 : Fin 1) j))
        (fun i j => v24 (ix2 i j)) (fun j => v7 (ix2 (0 : Fin 1) j)) (fun i => v8 (ix2 p i)) q := by
  unfold k0_pay10 k0_pay8 k0_pay9 Cert.Actor.net Cert.Actor.affine
  simp only [addf_apply, maximumf_apply, truncf_apply, broadcast_apply, mm1, mm2, mm3, broadcastTo_1b_ab_apply, zero_bf16]

/-- The second half's head at row `p`, column `q`: the network of row `p`. -/
theorem pay2_apply (v4 v6 : FVec Ideal S1x512 .bf16) (v7 : FVec Ideal S1x256 .f32) (v36 : FVec Ideal S1024x256 .f32) (v38 : FVec Ideal S256x512 .bf16) (v45 : FVec Ideal S512x512 .bf16) (v52 : FVec Ideal S512x256 .bf16) (p : Fin 1024) (q : Fin 256) :
    k0_pay2 (F := Ideal) v4 v6 v7 v36 v38 v45 v52 (ix2 p q) =
      Cert.Actor.net (fun i j => v38 (ix2 i j)) (fun j => v4 (ix2 (0 : Fin 1) j)) (fun i j => v45 (ix2 i j)) (fun j => v6 (ix2 (0 : Fin 1) j))
        (fun i j => v52 (ix2 i j)) (fun j => v7 (ix2 (0 : Fin 1) j)) (fun i => v36 (ix2 p i)) q := by
  unfold k0_pay2 Cert.Actor.net Cert.Actor.affine
  simp only [addf_apply, maximumf_apply, truncf_apply, broadcast_apply, mm1, mm2, mm3, broadcastTo_1b_ab_apply, zero_bf16]

/-- The first half's mean: head columns 0 … 127. -/
theorem pay11_apply (v3 v5 : FVec Ideal S1x512 .f32) (v7 : FVec Ideal S1x256 .f32) (v8 : FVec Ideal S1024x256 .f32) (v10 : FVec Ideal S256x512 .bf16) (v17 : FVec Ideal S512x512 .bf16) (v24 : FVec Ideal S512x256 .bf16) (p : Fin 1024) (q : Fin 128) (q' : Fin 256) (hq : q'.val = 0 + q.val) :
    k0_pay11 (F := Ideal) v3 v5 v7 v8 v10 v17 v24 (ix2 p q) =
      Cert.Actor.net (fun i j => v10 (ix2 i j)) (fun j => v3 (ix2 (0 : Fin 1) j)) (fun i j => v17 (ix2 i j)) (fun j => v5 (ix2 (0 : Fin 1) j))
        (fun i j => v24 (ix2 i j)) (fun j => v7 (ix2 (0 : Fin 1) j)) (fun i => v8 (ix2 p i)) q' := by
  unfold k0_pay11
  exact (slice2_axis1_apply 0 _ _ p q q' hq).trans (pay10_apply v3 v5 v7 v8 v10 v17 v24 p q')

/-- The first half's head columns 128 … 255, before the clamp. -/
theorem pay12_apply (v3 v5 : FVec Ideal S1x512 .f32) (v7 : FVec Ideal S1x256 .f32) (v8 : FVec Ideal S1024x256 .f32) (v10 : FVec Ideal S256x512 .bf16) (v17 : FVec Ideal S512x512 .bf16) (v24 : FVec Ideal S512x256 .bf16) (p : Fin 1024) (q : Fin 128) (q' : Fin 256) (hq : q'.val = 128 + q.val) :
    k0_pay12 (F := Ideal) v3 v5 v7 v8 v10 v17 v24 (ix2 p q) =
      Cert.Actor.net (fun i j => v10 (ix2 i j)) (fun j => v3 (ix2 (0 : Fin 1) j)) (fun i j => v17 (ix2 i j)) (fun j => v5 (ix2 (0 : Fin 1) j))
        (fun i j => v24 (ix2 i j)) (fun j => v7 (ix2 (0 : Fin 1) j)) (fun i => v8 (ix2 p i)) q' := by
  unfold k0_pay12
  exact (slice2_axis1_apply 128 _ _ p q q' hq).trans (pay10_apply v3 v5 v7 v8 v10 v17 v24 p q')

/-- The clamp of a block, entry by entry. -/
theorem pay1_apply (v30 : FVec Ideal S1024x128 .f32) (j : S1024x128.Idx) :
    k0_pay1 (F := Ideal) v30 (Scalar.ofBits .f32 0xC1A00000#32) (Scalar.ofBits .f32 0x40000000#32) j = Cert.Actor.clamp (v30 j) := rfl

/-- The second half's mean: head columns 0 … 127. -/
theorem pay3_apply (v4 v6 : FVec Ideal S1x512 .bf16) (v7 : FVec Ideal S1x256 .f32) (v36 : FVec Ideal S1024x256 .f32) (v38 : FVec Ideal S256x512 .bf16) (v45 : FVec Ideal S512x512 .bf16) (v52 : FVec Ideal S512x256 .bf16) (p : Fin 1024) (q : Fin 128) (q' : Fin 256) (hq : q'.val = 0 + q.val) :
    k0_pay3 (F := Ideal) v4 v6 v7 v36 v38 v45 v52 (ix2 p q) =
      Cert.Actor.net (fun i j => v38 (ix2 i j)) (fun j => v4 (ix2 (0 : Fin 1) j)) (fun i j => v45 (ix2 i j)) (fun j => v6 (ix2 (0 : Fin 1) j))
        (fun i j => v52 (ix2 i j)) (fun j => v7 (ix2 (0 : Fin 1) j)) (fun i => v36 (ix2 p i)) q' := by
  unfold k0_pay3
  exact (slice2_axis1_apply 0 _ _ p q q' hq).trans (pay2_apply v4 v6 v7 v36 v38 v45 v52 p q')

/-- The second half's log-deviation: head columns 128 … 255, clamped. -/
theorem pay4_apply (v4 v6 : FVec Ideal S1x512 .bf16) (v7 : FVec Ideal S1x256 .f32) (v36 : FVec Ideal S1024x256 .f32) (v38 : FVec Ideal S256x512 .bf16) (v45 : FVec Ideal S512x512 .bf16) (v52 : FVec Ideal S512x256 .bf16) (p : Fin 1024) (q : Fin 128) (q' : Fin 256) (hq : q'.val = 128 + q.val) :
    k0_pay4 (F := Ideal) v4 v6 v7 v36 v38 v45 v52 (ix2 p q) =
      Cert.Actor.clamp (Cert.Actor.net (fun i j => v38 (ix2 i j)) (fun j => v4 (ix2 (0 : Fin 1) j)) (fun i j => v45 (ix2 i j)) (fun j => v6 (ix2 (0 : Fin 1) j))
        (fun i j => v52 (ix2 i j)) (fun j => v7 (ix2 (0 : Fin 1) j)) (fun i => v36 (ix2 p i)) q') := by
  unfold k0_pay4
  show Cert.Actor.clamp (extractStridedSlice S1024x128 ![0, 128] (k0_pay2 (F := Ideal) v4 v6 v7 v36 v38 v45 v52) slices_S1024x256_o0_128_S1024x128 (ix2 p q)) = _
  exact congrArg Cert.Actor.clamp ((slice2_axis1_apply 128 _ _ p q q' hq).trans (pay2_apply v4 v6 v7 v36 v38 v45 v52 p q'))

/-- A cast weight matrix reads, entry by entry, the rows it was cast from. -/
theorem pay5_apply (v64 : FVec Ideal S256x512 .f32) (j : S256x512.Idx) : k0_pay5 (F := Ideal) v64 j = v64 j := by
  unfold k0_pay5
  exact congrFun (shapeCast_self _ _) j
theorem pay6_apply (v69 : FVec Ideal S512x512 .f32) (j : S512x512.Idx) : k0_pay6 (F := Ideal) v69 j = v69 j := by
  unfold k0_pay6
  exact congrFun (shapeCast_self _ _) j
theorem pay7_apply (v74 : FVec Ideal S512x256 .f32) (j : S512x256.Idx) : k0_pay7 (F := Ideal) v74 j = v74 j := by
  unfold k0_pay7
  exact congrFun (shapeCast_self _ _) j

/-- A cast bias row reads the row it was cast from. -/
theorem pay8_apply (v3 : FVec Ideal S1x512 .f32) (j : S1x512.Idx) : k0_pay8 (F := Ideal) v3 j = v3 j := rfl
theorem pay9_apply (v5 : FVec Ideal S1x512 .f32) (j : S1x512.Idx) : k0_pay9 (F := Ideal) v5 j = v5 j := rfl

end Cert.KernelIdeal.Body

end
-- ==== Proof.KernelBlockValue.lean ====
import proofs.«114963_g2000406044886496_pallasbulk_952_15_alg».proof.Proof.KernelPieces
import proofs.«114963_g2000406044886496_pallasbulk_952_15_alg».proof.Proof.KernelPayload

/-!
  A point's two output blocks at an index, on the extended reals, when the weight buffers hold the cast weight rows:
  row `p` of either block is the network of row `p` of the point's state block — rows below 1024 by the first half's
  expression, the others by the second half's, and both are the same function of the row.
-/

set_option maxRecDepth 16384

noncomputable section

namespace Cert.KernelIdeal.Body

open Cert.KernelIdeal Cert.KernelIdeal.Gen Idealize.ShloMosaic Idealize.ShloMosaic.ValueIdx

/-- The first weight buffer's contents are the weight rows of the packed first-layer matrix. -/
theorem castW1_eq (x1 : Vec Ideal S257x512 .f32) :
    (fun (i : Fin 256) (j : Fin 512) => castW1 (F := Ideal) x1 (ix2 i j)) = Cert.Actor.wts (n := 256) x1 := by
  funext i j
  unfold castW1 Cert.Actor.wts
  rw [pay5_apply]
  exact Cert.LibBlock.ld_unit2_apply (Val := Elt Ideal) (e := .f32) (n0 := 257) (n1 := 512) x1 ![0, 0] _ i j (Fin.castSucc i) j (by simp) (by simp)

theorem castW2_eq (x2 : Vec Ideal S513x512 .f32) :
    (fun (i : Fin 512) (j : Fin 512) => castW2 (F := Ideal) x2 (ix2 i j)) = Cert.Actor.wts (n := 512) x2 := by
  funext i j
  unfold castW2 Cert.Actor.wts
  rw [pay6_apply]
  exact Cert.LibBlock.ld_unit2_apply (Val := Elt Ideal) (e := .f32) (n0 := 513) (n1 := 512) x2 ![0, 0] _ i j (Fin.castSucc i) j (by simp) (by simp)

theorem castW3_eq (x3 : Vec Ideal S513x256 .f32) :
    (fun (i : Fin 512) (j : Fin 256) => castW3 (F := Ideal) x3 (ix2 i j)) = Cert.Actor.wts (n := 512) x3 := by
  funext i j
  unfold castW3 Cert.Actor.wts
  rw [pay7_apply]
  exact Cert.LibBlock.ld_unit2_apply (Val := Elt Ideal) (e := .f32) (n0 := 513) (n1 := 256) x3 ![0, 0] _ i j (Fin.castSucc i) j (by simp) (by simp)

/-- The loaded last row of a packed matrix is its bias. -/
theorem biasRow1_eq (x1 : Vec Ideal S257x512 .f32) :
    (fun (j : Fin 512) => View.ld x1 (Rect.unit (s := S257x512) ![256, 0] S1x512.size inb_S257x512_S1x512_256_0) (ix2 (0 : Fin 1) j))
      = Cert.Actor.bias (n := 256) x1 := by
  funext j
  unfold Cert.Actor.bias
  exact Cert.LibBlock.ld_unit2_apply (Val := Elt Ideal) (e := .f32) (n0 := 257) (n1 := 512) x1 ![256, 0] _ (0 : Fin 1) j (Fin.last 256) j (by simp) (by simp)

theorem biasRow2_eq (x2 : Vec Ideal S513x512 .f32) :
    (fun (j : Fin 512) => View.ld x2 (Rect.unit (s := S513x512) ![512, 0] S1x512.size inb_S513x512_S1x512_512_0) (ix2 (0 : Fin 1) j))
      = Cert.Actor.bias (n := 512) x2 := by
  funext j
  unfold Cert.Actor.bias
  exact Cert.LibBlock.ld_unit2_apply (Val := Elt Ideal) (e := .f32) (n0 := 513) (n1 := 512) x2 ![512, 0] _ (0 : Fin 1) j (Fin.last 512) j (by simp) (by simp)

theorem biasRow3_eq (x3 : Vec Ideal S513x256 .f32) :
    (fun (j : Fin 256) => View.ld x3 (Rect.unit (s := S513x256) ![512, 0] S1x256.size inb_S513x256_S1x256_512_0) (ix2 (0 : Fin 1) j))
      = Cert.Actor.bias (n := 512) x3 := by
  funext j
  unfold Cert.Actor.bias
  exact Cert.LibBlock.ld_unit2_apply (Val := Elt Ideal) (e := .f32) (n0 := 513) (n1 := 256) x3 ![512, 0] _ (0 : Fin 1) j (Fin.last 512) j (by simp) (by simp)

/-- The first half's state rows are rows 0 … 1023 of the block. -/
theorem rowsLo_eq (x0 : Vec Ideal S2048x256 .f32) (p : Fin 2048) (hp : p.val < 1024) :
    (fun (i : Fin 256) => View.ld x0 (Rect.unit (s := S2048x256) ![0, 0] S1024x256.size inb_S2048x256_S1024x256_0_0) (ix2 (⟨p.val, hp⟩ : Fin 1024) i))
      = fun i => x0 (ix2 p i) := by
  funext i
  exact Cert.LibBlock.ld_unit2_apply (Val := Elt Ideal) (e := .f32) (n0 := 2048) (n1 := 256) x0 ![0, 0] _ (⟨p.val, hp⟩ : Fin 1024) i p i (by simp) (by simp)

/-- The second half's state rows are rows 1024 … 2047 of the block. -/
theorem rowsHi_eq (x0 : Vec Ideal S2048x256 .f32) (p : Fin 2048) (hp : ¬p.val < 1024) :
    (fun (i : Fin 256) => View.ld x0 (Rect.unit (s := S2048x256) ![1024, 0] S1024x256.size inb_S2048x256_S1024x256_1024_0)
        (ix2 (⟨p.val - 1024, by have := p.isLt; omega⟩ : Fin 1024) i))
      = fun i => x0 (ix2 p i) := by
  funext i
  exact Cert.LibBlock.ld_unit2_apply (Val := Elt Ideal) (e := .f32) (n0 := 2048) (n1 := 256) x0 ![1024, 0] _ (⟨p.val - 1024, by have := p.isLt; omega⟩ : Fin 1024) i p i (by show p.val = 1024 + (p.val - 1024); omega) (by simp)

section TwoHalves

variable {Val : EltTy → Type} [∀ e, Nonempty (Val e)]

/-- An index of the block in its lower half is not under the upper half's store. -/
theorem not_mem_hi (p : Fin 2048) (q : Fin 128) (hp : p.val < 1024) :
    (ix2 p q : S2048x128.Idx) ∉ (Rect.unit (s := S2048x128) ![1024, 0] S1024x128.size inb_S2048x128_S1024x128_1024_0).set := by
  rw [Rect.mem_set_unit]
  intro h
  have h0 : 1024 ≤ p.val := (h 0).1
  omega

/-- and is the lower store's element at the same coordinates; -/
theorem eq_emb_lo (p : Fin 2048) (q : Fin 128) (hp : p.val < 1024) :
    (ix2 p q : S2048x128.Idx) = (Rect.unit (s := S2048x128) ![0, 0] S1024x128.size inb_S2048x128_S1024x128_0_0).emb (ix2 (⟨p.val, hp⟩ : Fin 1024) q) := by
  funext a; apply Fin.ext
  match a with
  | ⟨0, _⟩ => show p.val = 0 + 1 * p.val; omega
  | ⟨1, _⟩ => show q.val = 0 + 1 * q.val; omega

/-- one in its upper half is the upper store's element 1024 rows up. -/
theorem eq_emb_hi (p : Fin 2048) (q : Fin 128) (hp : ¬p.val < 1024) :
    (ix2 p q : S2048x128.Idx) = (Rect.unit (s := S2048x128) ![1024, 0] S1024x128.size inb_S2048x128_S1024x128_1024_0).emb (ix2 (⟨p.val - 1024, by have := p.isLt; omega⟩ : Fin 1024) q) := by
  funext a; apply Fin.ext
  match a with
  | ⟨0, _⟩ => show p.val = 1024 + 1 * (p.val - 1024); omega
  | ⟨1, _⟩ => show q.val = 0 + 1 * q.val; omega

/-- The block the two half stores leave, read in its lower half: the first half's payload. -/
theorem canon_two_lo (wHi wLo : S1024x128.Idx → Val .f32) (p : Fin 2048) (q : Fin 128) (hp : p.val < 1024) :
    View.canon [(⟨(Rect.unit (s := S2048x128) ![1024, 0] S1024x128.size inb_S2048x128_S1024x128_1024_0), wHi⟩ : View.Piece Val S2048x128 .f32), ⟨(Rect.unit (s := S2048x128) ![0, 0] S1024x128.size inb_S2048x128_S1024x128_0_0), wLo⟩] (ix2 p q)
      = wLo (ix2 (⟨p.val, hp⟩ : Fin 1024) q) := by
  rw [View.canon_cons_of_not_mem (⟨(Rect.unit (s := S2048x128) ![1024, 0] S1024x128.size inb_S2048x128_S1024x128_1024_0), wHi⟩ : View.Piece Val S2048x128 .f32) [⟨(Rect.unit (s := S2048x128) ![0, 0] S1024x128.size inb_S2048x128_S1024x128_0_0), wLo⟩] (not_mem_hi p q hp),
    eq_emb_lo p q hp]
  exact View.canon_cons_emb (Rect.unit (s := S2048x128) ![0, 0] S1024x128.size inb_S2048x128_S1024x128_0_0) wLo [] _

/-- and in its upper half: the second half's payload. -/
theorem canon_two_hi (wHi wLo : S1024x128.Idx → Val .f32) (p : Fin 2048) (q : Fin 128) (hp : ¬p.val < 1024) :
    View.canon [(⟨(Rect.unit (s := S2048x128) ![1024, 0] S1024x128.size inb_S2048x128_S1024x128_1024_0), wHi⟩ : View.Piece Val S2048x128 .f32), ⟨(Rect.unit (s := S2048x128) ![0, 0] S1024x128.size inb_S2048x128_S1024x128_0_0), wLo⟩] (ix2 p q)
      = wHi (ix2 (⟨p.val - 1024, by have := p.isLt; omega⟩ : Fin 1024) q) := by
  rw [eq_emb_hi p q hp]
  exact View.canon_cons_emb (Rect.unit (s := S2048x128) ![1024, 0] S1024x128.size inb_S2048x128_S1024x128_1024_0) wHi [⟨(Rect.unit (s := S2048x128) ![0, 0] S1024x128.size inb_S2048x128_S1024x128_0_0), wLo⟩] _

end TwoHalves

/-- THE MEAN BLOCK at `(p, q)`: the network of row `p` of the state block, head column `q`. -/
theorem muBlock_apply (x0 : Vec Ideal S2048x256 .f32) (x1 : Vec Ideal S257x512 .f32) (x2 : Vec Ideal S513x512 .f32) (x3 : Vec Ideal S513x256 .f32) (p : Fin 2048) (q : Fin 128) (q' : Fin 256) (hq : q'.val = q.val) :
    muBlock (F := Ideal) x0 x1 x2 x3 (castW1 x1) (castW2 x2) (castW3 x3) (ix2 p q) =
      Cert.Actor.net (Cert.Actor.wts (n := 256) x1) (Cert.Actor.bias (n := 256) x1) (Cert.Actor.wts (n := 512) x2) (Cert.Actor.bias (n := 512) x2)
        (Cert.Actor.wts (n := 512) x3) (Cert.Actor.bias (n := 512) x3) (fun i => x0 (ix2 p i)) q' := by
  unfold muBlock
  by_cases hp : p.val < 1024
  · rw [canon_two_lo _ _ p q hp, pay11_apply _ _ _ _ _ _ _ _ q q' (by omega),
      castW1_eq, castW2_eq, castW3_eq, biasRow1_eq, biasRow2_eq, biasRow3_eq, rowsLo_eq x0 p hp]
  · rw [canon_two_hi _ _ p q hp, pay3_apply _ _ _ _ _ _ _ _ q q' (by omega)]
    simp only [pay8_apply, pay9_apply]
    rw [castW1_eq, castW2_eq, castW3_eq, biasRow1_eq, biasRow2_eq, biasRow3_eq, rowsHi_eq x0 p hp]

/-- THE LOG-DEVIATION BLOCK at `(p, q)`: the network of row `p`, head column `128 + q`, clamped. -/
theorem lsBlock_apply (x0 : Vec Ideal S2048x256 .f32) (x1 : Vec Ideal S257x512 .f32) (x2 : Vec Ideal S513x512 .f32) (x3 : Vec Ideal S513x256 .f32) (p : Fin 2048) (q : Fin 128) (q' : Fin 256) (hq : q'.val = 128 + q.val) :
    lsBlock (F := Ideal) x0 x1 x2 x3 (castW1 x1) (castW2 x2) (castW3 x3) (ix2 p q) =
      Cert.Actor.clamp (Cert.Actor.net (Cert.Actor.wts (n := 256) x1) (Cert.Actor.bias (n := 256) x1) (Cert.Actor.wts (n := 512) x2) (Cert.Actor.bias (n := 512) x2)
        (Cert.Actor.wts (n := 512) x3) (Cert.Actor.bias (n := 512) x3) (fun i => x0 (ix2 p i)) q') := by
  unfold lsBlock
  by_cases hp : p.val < 1024
  · rw [canon_two_lo _ _ p q hp, pay1_apply, pay12_apply _ _ _ _ _ _ _ _ q q' hq,
      castW1_eq, castW2_eq, castW3_eq, biasRow1_eq, biasRow2_eq, biasRow3_eq, rowsLo_eq x0 p hp]
  · rw [canon_two_hi _ _ p q hp, pay4_apply _ _ _ _ _ _ _ _ q q' hq]
    simp only [pay8_apply, pay9_apply]
    rw [castW1_eq, castW2_eq, castW3_eq, biasRow1_eq, biasRow2_eq, biasRow3_eq, rowsHi_eq x0 p hp]

end Cert.KernelIdeal.Body

end
-- ==== Proof.KernelFinal.lean ====
import proofs.«114963_g2000406044886496_pallasbulk_952_15_alg».proof.Proof.KernelPoints
import proofs.«114963_g2000406044886496_pallasbulk_952_15_alg».proof.Proof.KernelBlockValue

set_option maxRecDepth 16384

noncomputable section

/-!
  The idealized kernel's two result arrays after the run, as functions of the argument arrays.

  Point `t` writes back rows 2048·t … 2048·t + 2047 of each result; by the per-point equation its block at `(p, q)` is the
  network of state row 2048·t + p, so each flushed block is that block of ONE whole-array function, the eight blocks
  cover the array, and the array ends at that function.
-/

namespace Cert.KernelIdeal.Body

open Cert.KernelIdeal Cert.KernelIdeal.Gen Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- Row `p` of point `t`'s state block is row 2048·t + p of the state. -/
theorem stateBlk_apply (c : Dev nD) (t : Fin cfg0.N) (p : Fin 2048) (i : Fin 256) (r : Fin 16384) (hr : r.val = t.val * 2048 + p.val) :
    stateBlk m c t (ix2 p i) = V m c main_arg0 (ix2 r i) := by
  obtain ⟨e0, e1, -⟩ := idx_facts t
  show V m c main_arg0 (((cfg0.win 0).blk t).view.emb (ix2 p i)) = V m c main_arg0 (ix2 r i)
  refine congrArg (V m c main_arg0) ?_
  funext a; apply Fin.ext
  match a with
  | ⟨0, _⟩ => show win0_0.index t (0 : Fin 2) * 2048 + 1 * p.val = r.val; omega
  | ⟨1, _⟩ => show win0_0.index t (1 : Fin 2) * 256 + 1 * i.val = i.val; omega

/-- WHAT POINT `t` WRITES BACK through output window 4 is block `t` of the mean of the argument arrays. -/
theorem flushed4_eq (c : Dev nD) (t : Fin cfg0.N) :
    (dats m 0 c).flushed 4 t = ((cfg0.win 4).blk t).view.read (Elt Ideal) (Cert.Actor.mu (V m c main_arg0) (V m c main_arg1) (V m c main_arg2) (V m c main_arg3)) := by
  have hN : t.val < 8 := lt_of_lt_of_eq t.isLt (show cfg0.N = 8 from N_0)
  obtain ⟨-, -, -, -, -, -, -, -, e40, e41, e50, e51⟩ := idx_facts t
  rw [Cert.KernelIdeal.Value.flushed4, point_eq m c t.val t.isLt]
  dsimp only
  funext y
  obtain ⟨p, q, rfl⟩ : ∃ (p : Fin 2048) (q : Fin 128), y = ix2 p q := ⟨y 0, y 1, eq_ix2 (n0 := 2048) (n1 := 128) y⟩
  show muBlock (F := Ideal) (stateBlk m c t) (w1Arr m c) (w2Arr m c) (w3Arr m c) (castW1 (w1Arr m c)) (castW2 (w2Arr m c)) (castW3 (w3Arr m c)) (ix2 p q)
    = Cert.Actor.mu (V m c main_arg0) (V m c main_arg1) (V m c main_arg2) (V m c main_arg3) (((cfg0.win 4).blk t).view.emb (ix2 p q))
  have hemb : ((cfg0.win 4).blk t).view.emb (ix2 p q) = ix2 (⟨t.val * 2048 + p.val, by have := p.isLt; omega⟩ : Fin 16384) q := by
    funext a; apply Fin.ext
    match a with
    | ⟨0, _⟩ => show win0_4.index t (0 : Fin 2) * 2048 + 1 * p.val = t.val * 2048 + p.val; omega
    | ⟨1, _⟩ => show win0_4.index t (1 : Fin 2) * 128 + 1 * q.val = q.val; omega
  rw [hemb, Cert.Actor.mu_apply _ _ _ _ _ q (⟨q.val, by have := q.isLt; omega⟩ : Fin 256) rfl,
    muBlock_apply _ _ _ _ p q (⟨q.val, by have := q.isLt; omega⟩ : Fin 256) rfl]
  unfold Cert.Actor.headAt
  rw [show (fun i => stateBlk m c t (ix2 p i)) = fun i => V m c main_arg0 (ix2 (⟨t.val * 2048 + p.val, by have := p.isLt; omega⟩ : Fin 16384) i)
    from funext fun i => stateBlk_apply m c t p i _ rfl]

/-- An index of output window 4's array is in point `t`'s block iff each coordinate is in the block's range on its axis. -/
theorem mem_blk4 (t : Fin cfg0.N) (i : S16384x128.Idx) :
    i ∈ ((cfg0.win 4).blk t).view.set ↔ ∀ a : Fin 2, win0_4.index t a * S2048x128.size a ≤ (i a).val ∧ (i a).val < win0_4.index t a * S2048x128.size a + S2048x128.size a := by
  show i ∈ ((View.whole main_v0_0).slice (win0_4.rect t)).set ↔ _
  rw [View.set_slice_whole, Rect.mem_set_unit]
  exact Iff.rfl

/-- Every row of the array is in the block of the point numbered by the row's quotient by 2048. -/
theorem cover4 (i : S16384x128.Idx) : ∃ t : Fin cfg0.N, (cfg0.win 4).flush t = true ∧ i ∈ ((cfg0.win 4).blk t).view.set := by
  have hi0 : (i 0).val < 16384 := (i 0).isLt
  have hi1 : (i 1).val < 128 := (i 1).isLt
  have hN : cfg0.N = 8 := N_0
  have hlt : (i 0).val / 2048 < cfg0.N := by rw [hN]; omega
  obtain ⟨-, -, -, -, -, -, -, -, e40, e41, e50, e51⟩ := idx_facts ⟨(i 0).val / 2048, hlt⟩
  have e40' : win0_4.index ⟨(i 0).val / 2048, hlt⟩ (0 : Fin 2) = (i 0).val / 2048 := e40
  have e50' : win0_5.index ⟨(i 0).val / 2048, hlt⟩ (0 : Fin 2) = (i 0).val / 2048 := e50
  refine ⟨⟨(i 0).val / 2048, hlt⟩, flush0_4 _, ?_⟩
  rw [mem_blk4]
  intro a
  match a with
  | ⟨0, _⟩ =>
    show win0_4.index ⟨(i 0).val / 2048, hlt⟩ (0 : Fin 2) * 2048 ≤ (i 0).val ∧ (i 0).val < win0_4.index ⟨(i 0).val / 2048, hlt⟩ (0 : Fin 2) * 2048 + 2048
    omega
  | ⟨1, _⟩ =>
    show win0_4.index ⟨(i 0).val / 2048, hlt⟩ (1 : Fin 2) * 128 ≤ (i 1).val ∧ (i 1).val < win0_4.index ⟨(i 0).val / 2048, hlt⟩ (1 : Fin 2) * 128 + 128
    omega

/-- THE ARRAY after the run: the mean of the argument arrays. -/
theorem final4 (c : Dev nD) : (dats m 0 c).arrAt 4 cfg0.N = Cert.Actor.mu (m ((c : Thread nD τ).loc main_arg0)) (m ((c : Thread nD τ).loc main_arg1)) (m ((c : Thread nD τ).loc main_arg2)) (m ((c : Thread nD τ).loc main_arg3)) := by
  rw [(dats m 0 c).arrAt_eq_of_cover 4 (Cert.Actor.mu (V m c main_arg0) (V m c main_arg1) (V m c main_arg2) (V m c main_arg3)) (fun t _ => flushed4_eq m c t) cover4,
    V_main_arg0, V_main_arg1, V_main_arg2, V_main_arg3]

/-- WHAT POINT `t` WRITES BACK through output window 5 is block `t` of the clamped log-deviation of the argument arrays. -/
theorem flushed5_eq (c : Dev nD) (t : Fin cfg0.N) :
    (dats m 0 c).flushed 5 t = ((cfg0.win 5).blk t).view.read (Elt Ideal) (Cert.Actor.ls (V m c main_arg0) (V m c main_arg1) (V m c main_arg2) (V m c main_arg3)) := by
  have hN : t.val < 8 := lt_of_lt_of_eq t.isLt (show cfg0.N = 8 from N_0)
  obtain ⟨-, -, -, -, -, -, -, -, e40, e41, e50, e51⟩ := idx_facts t
  rw [Cert.KernelIdeal.Value.flushed5, point_eq m c t.val t.isLt]
  dsimp only
  funext y
  obtain ⟨p, q, rfl⟩ : ∃ (p : Fin 2048) (q : Fin 128), y = ix2 p q := ⟨y 0, y 1, eq_ix2 (n0 := 2048) (n1 := 128) y⟩
  show lsBlock (F := Ideal) (stateBlk m c t) (w1Arr m c) (w2Arr m c) (w3Arr m c) (castW1 (w1Arr m c)) (castW2 (w2Arr m c)) (castW3 (w3Arr m c)) (ix2 p q)
    = Cert.Actor.ls (V m c main_arg0) (V m c main_arg1) (V m c main_arg2) (V m c main_arg3) (((cfg0.win 5).blk t).view.emb (ix2 p q))
  have hemb : ((cfg0.win 5).blk t).view.emb (ix2 p q) = ix2 (⟨t.val * 2048 + p.val, by have := p.isLt; omega⟩ : Fin 16384) q := by
    funext a; apply Fin.ext
    match a with
    | ⟨0, _⟩ => show win0_5.index t (0 : Fin 2) * 2048 + 1 * p.val = t.val * 2048 + p.val; omega
    | ⟨1, _⟩ => show win0_5.index t (1 : Fin 2) * 128 + 1 * q.val = q.val; omega
  rw [hemb, Cert.Actor.ls_apply _ _ _ _ _ q (⟨128 + q.val, by have := q.isLt; omega⟩ : Fin 256) rfl,
    lsBlock_apply _ _ _ _ p q (⟨128 + q.val, by have := q.isLt; omega⟩ : Fin 256) rfl]
  unfold Cert.Actor.headAt
  rw [show (fun i => stateBlk m c t (ix2 p i)) = fun i => V m c main_arg0 (ix2 (⟨t.val * 2048 + p.val, by have := p.isLt; omega⟩ : Fin 16384) i)
    from funext fun i => stateBlk_apply m c t p i _ rfl]

/-- An index of output window 5's array is in point `t`'s block iff each coordinate is in the block's range on its axis. -/
theorem mem_blk5 (t : Fin cfg0.N) (i : S16384x128.Idx) :
    i ∈ ((cfg0.win 5).blk t).view.set ↔ ∀ a : Fin 2, win0_5.index t a * S2048x128.size a ≤ (i a).val ∧ (i a).val < win0_5.index t a * S2048x128.size a + S2048x128.size a := by
  show i ∈ ((View.whole main_v0_1).slice (win0_5.rect t)).set ↔ _
  rw [View.set_slice_whole, Rect.mem_set_unit]
  exact Iff.rfl

/-- Every row of the array is in the block of the point numbered by the row's quotient by 2048. -/
theorem cover5 (i : S16384x128.Idx) : ∃ t : Fin cfg0.N, (cfg0.win 5).flush t = true ∧ i ∈ ((cfg0.win 5).blk t).view.set := by
  have hi0 : (i 0).val < 16384 := (i 0).isLt
  have hi1 : (i 1).val < 128 := (i 1).isLt
  have hN : cfg0.N = 8 := N_0
  have hlt : (i 0).val / 2048 < cfg0.N := by rw [hN]; omega
  obtain ⟨-, -, -, -, -, -, -, -, e40, e41, e50, e51⟩ := idx_facts ⟨(i 0).val / 2048, hlt⟩
  have e40' : win0_4.index ⟨(i 0).val / 2048, hlt⟩ (0 : Fin 2) = (i 0).val / 2048 := e40
  have e50' : win0_5.index ⟨(i 0).val / 2048, hlt⟩ (0 : Fin 2) = (i 0).val / 2048 := e50
  refine ⟨⟨(i 0).val / 2048, hlt⟩, flush0_5 _, ?_⟩
  rw [mem_blk5]
  intro a
  match a with
  | ⟨0, _⟩ =>
    show win0_5.index ⟨(i 0).val / 2048, hlt⟩ (0 : Fin 2) * 2048 ≤ (i 0).val ∧ (i 0).val < win0_5.index ⟨(i 0).val / 2048, hlt⟩ (0 : Fin 2) * 2048 + 2048
    omega
  | ⟨1, _⟩ =>
    show win0_5.index ⟨(i 0).val / 2048, hlt⟩ (1 : Fin 2) * 128 ≤ (i 1).val ∧ (i 1).val < win0_5.index ⟨(i 0).val / 2048, hlt⟩ (1 : Fin 2) * 128 + 128
    omega

/-- THE ARRAY after the run: the clamped log-deviation of the argument arrays. -/
theorem final5 (c : Dev nD) : (dats m 0 c).arrAt 5 cfg0.N = Cert.Actor.ls (m ((c : Thread nD τ).loc main_arg0)) (m ((c : Thread nD τ).loc main_arg1)) (m ((c : Thread nD τ).loc main_arg2)) (m ((c : Thread nD τ).loc main_arg3)) := by
  rw [(dats m 0 c).arrAt_eq_of_cover 5 (Cert.Actor.ls (V m c main_arg0) (V m c main_arg1) (V m c main_arg2) (V m c main_arg3)) (fun t _ => flushed5_eq m c t) cover5,
    V_main_arg0, V_main_arg1, V_main_arg2, V_main_arg3]

/-- THE RUN, READ: every weakly fair execution of the idealized kernel ends with the mean and the clamped log-deviation of
    the argument arrays in its two results, the arguments unchanged. -/
theorem run : θ_run defs (onTc (τ := τ) (main (F := Ideal))) ⟨m, fun _ => 0, ρ⟩ fun r => ∀ c : Dev nD,
      r.2.mem ((c : Thread nD τ).loc main_v0_0) = Cert.Actor.mu (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = Cert.Actor.ls (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Cert.KernelIdeal.Value.run_blocks m ρ)

end Cert.KernelIdeal.Body

end
-- ==== Proof.RefPayload.lean ====
/-
  The body's arithmetic read at one index of its [512, 256] result: over the seven loaded vectors, the value at row `p` and
  column `q` is the network of row `p` of the loaded state block — the three matrix products read as sums over the
  shared coordinate, each bias row broadcast over the rows, `max(·, 0)` between the layers — clamped to [-20, 2] exactly
  on the columns `128 ≤ q`, which is where the column iota passes the signed test against 128.
-/
import proofs.«114963_g2000406044886496_pallasbulk_952_15_alg».proof.Proof.Gen.ReferenceIdeal.Skeleton
import proofs.«114963_g2000406044886496_pallasbulk_952_15_alg».proof.Proof.Spec
import proofs.«114963_g2000406044886496_pallasbulk_952_15_alg».proof.Proof.LibBlock

noncomputable section

namespace Cert.ReferenceIdeal.RefValue

open Cert.ReferenceIdeal Cert.ReferenceIdeal.Gen Idealize.ShloMosaic Idealize.ShloMosaic.ValueIdx

/-- The column test: the 32-bit word of column `q < 256` is at least 128 as a signed number exactly when `128 ≤ q`. -/
theorem col_test : ∀ q : Fin 256, IntOp.cmpi .sge (BitVec.ofNat 32 q.val) 128#32 = if 128 ≤ q.val then 1#1 else 0#1 := by
  decide +kernel

/-- The payload at `(p, q)`: the network on row `p` of the state block, with the weights and the bias rows as loaded, clamped
    on the columns `128 ≤ q`. -/
theorem pay_apply (v0 : Vec Ideal S512x256 .f32) (v1 : Vec Ideal S256x512 .f32) (v3 : Vec Ideal S1x512 .f32)
    (v8 : Vec Ideal S512x512 .f32) (v10 : Vec Ideal S1x512 .f32) (v15 : Vec Ideal S512x256 .f32) (v17 : Vec Ideal S1x256 .f32)
    (p : Fin 512) (q : Fin 256) :
    k0_pay1 (F := Ideal) v0 v1 v3 v8 v10 v15 v17 (ix2 p q)
      = if 128 ≤ q.val then
          Cert.Actor.clamp (Cert.Actor.net (fun i j => v1 (ix2 i j)) (fun j => v3 (ix2 (0 : Fin 1) j)) (fun i j => v8 (ix2 i j))
            (fun j => v10 (ix2 (0 : Fin 1) j)) (fun i j => v15 (ix2 i j)) (fun j => v17 (ix2 (0 : Fin 1) j)) (fun i => v0 (ix2 p i)) q)
        else
          Cert.Actor.net (fun i j => v1 (ix2 i j)) (fun j => v3 (ix2 (0 : Fin 1) j)) (fun i j => v8 (ix2 i j))
            (fun j => v10 (ix2 (0 : Fin 1) j)) (fun i j => v15 (ix2 i j)) (fun j => v17 (ix2 (0 : Fin 1) j)) (fun i => v0 (ix2 p i)) q := by
  have hmask : cmpi .sge (iota .tc S512x256 32 [1] iota_S512x256_d1_w32) (broadcast S512x256 128#32) (ix2 p q)
      = if 128 ≤ q.val then 1#1 else 0#1 := by
    show IntOp.cmpi .sge (iota .tc S512x256 32 [1] iota_S512x256_d1_w32 (ix2 p q)) 128#32 = _
    rw [iota_single_apply]
    exact col_test q
  have hzero : (FloatOps.ofBits FTy.f32 0#32 : Ideal .f32) = 0 := Ideal.ofBits_zero_f32
  unfold k0_pay1
  simp only [select_apply]
  rw [hmask]
  unfold Cert.Actor.clamp Cert.Actor.net Cert.Actor.affine
  split
  · rw [select_one]
    simp only [addf_apply, maximumf_apply, minimumf_apply, broadcast_apply, broadcastTo_1b_ab_apply,
      Cert.LibBlock.matmul_rc_apply dot_S512x256_S256x512_S512x512_1_0_0_1_n_n rfl rfl rfl rfl rfl rfl,
      Cert.LibBlock.matmul_rc_apply dot_S512x512_S512x512_S512x512_1_0_0_1_n_n rfl rfl rfl rfl rfl rfl,
      Cert.LibBlock.matmul_rc_apply dot_S512x512_S512x256_S512x256_1_0_0_1_n_n rfl rfl rfl rfl rfl rfl]
    rw [hzero]
    rfl
  · rw [select_zero]
    simp only [addf_apply, maximumf_apply, minimumf_apply, broadcast_apply, broadcastTo_1b_ab_apply,
      Cert.LibBlock.matmul_rc_apply dot_S512x256_S256x512_S512x512_1_0_0_1_n_n rfl rfl rfl rfl rfl rfl,
      Cert.LibBlock.matmul_rc_apply dot_S512x512_S512x512_S512x512_1_0_0_1_n_n rfl rfl rfl rfl rfl rfl,
      Cert.LibBlock.matmul_rc_apply dot_S512x512_S512x256_S512x256_1_0_0_1_n_n rfl rfl rfl rfl rfl rfl]
    rw [hzero]

end Cert.ReferenceIdeal.RefValue

end
-- ==== Proof.RefOut.lean ====
/-
  The reference's result before the two column slices, as one function of the four argument arrays: at row `r` and
  column `q` the fused head of state row `r`, clamped to [-20, 2] on the columns 128 … 255.
-/
import proofs.«114963_g2000406044886496_pallasbulk_952_15_alg».proof.Proof.Spec

noncomputable section

namespace Cert.ReferenceIdeal.RefValue

open Idealize.ShloMosaic Idealize.ShloMosaic.ValueIdx

/-- The head with its log-deviation half clamped: the whole [16384, 256] array the two results are cut from. -/
def Out (x : FVec Ideal Cert.Actor.XS .f32) (w1 : FVec Ideal Cert.Actor.W1S .f32) (w2 : FVec Ideal Cert.Actor.W2S .f32)
    (wh : FVec Ideal Cert.Actor.WHS .f32) : FVec Ideal Cert.Actor.XS .f32 := fun i =>
  if 128 ≤ (i 1).val then Cert.Actor.clamp (Cert.Actor.headAt x w1 w2 wh ⟨(i 0).val, idx2_lt0 i⟩ ⟨(i 1).val, idx2_lt1 i⟩)
  else Cert.Actor.headAt x w1 w2 wh ⟨(i 0).val, idx2_lt0 i⟩ ⟨(i 1).val, idx2_lt1 i⟩

/-- `Out` read at explicit coordinates. -/
theorem Out_apply (x : FVec Ideal Cert.Actor.XS .f32) (w1 : FVec Ideal Cert.Actor.W1S .f32) (w2 : FVec Ideal Cert.Actor.W2S .f32)
    (wh : FVec Ideal Cert.Actor.WHS .f32) (r : Fin 16384) (q : Fin 256) :
    Out x w1 w2 wh (ix2 r q) = if 128 ≤ q.val then Cert.Actor.clamp (Cert.Actor.headAt x w1 w2 wh r q)
      else Cert.Actor.headAt x w1 w2 wh r q := rfl

end Cert.ReferenceIdeal.RefValue

end
-- ==== Proof.RefBlock.lean ====
/-
  One grid point's result from the four staged blocks. The seven loaded boxes are: the whole state block; of each packed
  matrix its weight rows (all rows but the last) and its bias row (the last). So the body's value at `(p, q)` is the network
  on row `p` of the state block with those weights, clamped on the columns `128 ≤ q`; and where the weight blocks are the
  weight arrays and row `p` of the state block is row `r` of the state array, it is the whole-array function at `(r, q)`.
-/
import proofs.«114963_g2000406044886496_pallasbulk_952_15_alg».proof.Proof.Gen.ReferenceIdeal.Frame
import proofs.«114963_g2000406044886496_pallasbulk_952_15_alg».proof.Proof.RefPayload
import proofs.«114963_g2000406044886496_pallasbulk_952_15_alg».proof.Proof.RefOut

noncomputable section

namespace Cert.ReferenceIdeal.RefValue

open Cert.ReferenceIdeal Cert.ReferenceIdeal.Gen Idealize.ShloMosaic Idealize.ShloMosaic.TcCoe Idealize.SL.Sem
open Idealize.ShloMosaic.ValueIdx
open Idealize.ShloMosaic.Pipeline (Dat)

/-- The body's result at `(p, q)` from the four staged blocks: the loaded boxes are the weight rows and the bias row of
    each packed matrix, and the whole state block. -/
theorem block_apply (x0 : Vec Ideal S512x256 .f32) (x1 : Vec Ideal S257x512 .f32) (x2 : Vec Ideal S513x512 .f32)
    (x3 : Vec Ideal S513x256 .f32) (p : Fin 512) (q : Fin 256) :
    k0_pay1 (F := Ideal) (View.ld x0 r0_0) (View.ld x1 r0_1) (View.ld x1 r0_2) (View.ld x2 r0_3) (View.ld x2 r0_4)
        (View.ld x3 r0_5) (View.ld x3 r0_6) (ix2 p q)
      = if 128 ≤ q.val then
          Cert.Actor.clamp (Cert.Actor.net (Cert.Actor.wts (n := 256) x1) (Cert.Actor.bias (n := 256) x1)
            (Cert.Actor.wts (n := 512) x2) (Cert.Actor.bias (n := 512) x2) (Cert.Actor.wts (n := 512) x3)
            (Cert.Actor.bias (n := 512) x3) (fun i => x0 (ix2 p i)) q)
        else
          Cert.Actor.net (Cert.Actor.wts (n := 256) x1) (Cert.Actor.bias (n := 256) x1)
            (Cert.Actor.wts (n := 512) x2) (Cert.Actor.bias (n := 512) x2) (Cert.Actor.wts (n := 512) x3)
            (Cert.Actor.bias (n := 512) x3) (fun i => x0 (ix2 p i)) q := by
  rw [pay_apply]
  have e0 : (fun i : Fin 256 => View.ld x0 r0_0 (ix2 p i)) = fun i => x0 (ix2 p i) :=
    funext fun i => Cert.LibBlock.ld_unit2_apply x0 ![0, 0] _ p i p i (by simp) (by simp)
  have e1 : (fun (i : Fin 256) (j : Fin 512) => View.ld x1 r0_1 (ix2 i j)) = Cert.Actor.wts (n := 256) x1 :=
    funext fun i => funext fun j => Cert.LibBlock.ld_unit2_apply x1 ![0, 0] _ i j i.castSucc j (by simp) (by simp)
  have e2 : (fun j : Fin 512 => View.ld x1 r0_2 (ix2 (0 : Fin 1) j)) = Cert.Actor.bias (n := 256) x1 :=
    funext fun j => Cert.LibBlock.ld_unit2_apply x1 ![256, 0] _ 0 j (Fin.last 256) j (by simp) (by simp)
  have e3 : (fun (i : Fin 512) (j : Fin 512) => View.ld x2 r0_3 (ix2 i j)) = Cert.Actor.wts (n := 512) x2 :=
    funext fun i => funext fun j => Cert.LibBlock.ld_unit2_apply x2 ![0, 0] _ i j i.castSucc j (by simp) (by simp)
  have e4 : (fun j : Fin 512 => View.ld x2 r0_4 (ix2 (0 : Fin 1) j)) = Cert.Actor.bias (n := 512) x2 :=
    funext fun j => Cert.LibBlock.ld_unit2_apply x2 ![512, 0] _ 0 j (Fin.last 512) j (by simp) (by simp)
  have e5 : (fun (i : Fin 512) (j : Fin 256) => View.ld x3 r0_5 (ix2 i j)) = Cert.Actor.wts (n := 512) x3 :=
    funext fun i => funext fun j => Cert.LibBlock.ld_unit2_apply x3 ![0, 0] _ i j i.castSucc j (by simp) (by simp)
  have e6 : (fun j : Fin 256 => View.ld x3 r0_6 (ix2 (0 : Fin 1) j)) = Cert.Actor.bias (n := 512) x3 :=
    funext fun j => Cert.LibBlock.ld_unit2_apply x3 ![512, 0] _ 0 j (Fin.last 512) j (by simp) (by simp)
  rw [e0, e1, e2, e3, e4, e5, e6]

/-- One point's result against the whole-array function: when the weight blocks are the weight arrays and row `p` of the
    state block is row `r` of the state array, the body's value at `(p, q)` is `Out` at `(r, q)`. -/
theorem point_val (X : FVec Ideal Cert.Actor.XS .f32) (W1 : FVec Ideal Cert.Actor.W1S .f32) (W2 : FVec Ideal Cert.Actor.W2S .f32)
    (WH : FVec Ideal Cert.Actor.WHS .f32)
    (x0 : Vec Ideal S512x256 .f32) (x1 : Vec Ideal S257x512 .f32) (x2 : Vec Ideal S513x512 .f32) (x3 : Vec Ideal S513x256 .f32)
    (h1 : x1 = W1) (h2 : x2 = W2) (h3 : x3 = WH) (r : Fin 16384) (p : Fin 512)
    (h0 : ∀ i : Fin 256, x0 (ix2 p i) = X (ix2 r i)) (q : Fin 256) :
    k0_pay1 (F := Ideal) (View.ld x0 r0_0) (View.ld x1 r0_1) (View.ld x1 r0_2) (View.ld x2 r0_3) (View.ld x2 r0_4)
        (View.ld x3 r0_5) (View.ld x3 r0_6) (ix2 p q) = Out X W1 W2 WH (ix2 r q) := by
  rw [block_apply, Out_apply, h1, h2, h3, funext h0]
  rfl

end Cert.ReferenceIdeal.RefValue

end
-- ==== Proof.RefFlushed.lean ====
/-
  What each grid point writes back to the result array. At point `t` the state window holds rows `512 t … 512 t + 511` of
  the state array and each weight window holds its whole array (the printed index maps, decided over the 32 points), so
  the body's result there is block `t` of the whole-array function `Out` of the four argument arrays.
-/
import proofs.«114963_g2000406044886496_pallasbulk_952_15_alg».proof.Proof.RefBlock
import Idealize.ShloMosaic.Lib.Pipeline.Value

noncomputable section

namespace Cert.ReferenceIdeal.RefValue

open Cert.ReferenceIdeal Cert.ReferenceIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the state window and the result window sit at block row `t`, column block 0;
    each weight window is its whole array, at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The first weight window's block at any point is its array. -/
theorem iblk1_eq (c : Dev nD) (t : Fin cfg0.N) :
    (iblk m c 1 t : Vec Ideal S257x512 .f32) = (V m c main_arg1 : Vec Ideal S257x512 .f32) := by
  obtain ⟨-, -, e0, e1, -⟩ := idx_facts t
  funext y
  unfold iblk
  rw [View.read_apply]
  show V m c main_arg1 _ = V m c main_arg1 y
  congr 1
  funext a
  apply Fin.ext
  match a with
  | ⟨0, _⟩ => show win0_1.index t (0 : Fin 2) * 257 + 1 * (y 0).val = (y 0).val; rw [e0]; omega
  | ⟨1, _⟩ => show win0_1.index t (1 : Fin 2) * 512 + 1 * (y 1).val = (y 1).val; rw [e1]; omega

/-- The second weight window's block at any point is its array. -/
theorem iblk2_eq (c : Dev nD) (t : Fin cfg0.N) :
    (iblk m c 2 t : Vec Ideal S513x512 .f32) = (V m c main_arg2 : Vec Ideal S513x512 .f32) := by
  obtain ⟨-, -, -, -, e0, e1, -⟩ := idx_facts t
  funext y
  unfold iblk
  rw [View.read_apply]
  show V m c main_arg2 _ = V m c main_arg2 y
  congr 1
  funext a
  apply Fin.ext
  match a with
  | ⟨0, _⟩ => show win0_2.index t (0 : Fin 2) * 513 + 1 * (y 0).val = (y 0).val; rw [e0]; omega
  | ⟨1, _⟩ => show win0_2.index t (1 : Fin 2) * 512 + 1 * (y 1).val = (y 1).val; rw [e1]; omega

/-- The head's weight window's block at any point is its array. -/
theorem iblk3_eq (c : Dev nD) (t : Fin cfg0.N) :
    (iblk m c 3 t : Vec Ideal S513x256 .f32) = (V m c main_arg3 : Vec Ideal S513x256 .f32) := by
  obtain ⟨-, -, -, -, -, -, e0, e1, -⟩ := idx_facts t
  funext y
  unfold iblk
  rw [View.read_apply]
  show V m c main_arg3 _ = V m c main_arg3 y
  congr 1
  funext a
  apply Fin.ext
  match a with
  | ⟨0, _⟩ => show win0_3.index t (0 : Fin 2) * 513 + 1 * (y 0).val = (y 0).val; rw [e0]; omega
  | ⟨1, _⟩ => show win0_3.index t (1 : Fin 2) * 256 + 1 * (y 1).val = (y 1).val; rw [e1]; omega

/-- Row `p` of the state window's block at point `t` is row `512 t + p` of the state array. -/
theorem iblk0_apply (c : Dev nD) (t : Fin cfg0.N) (p : Fin 512) (i : Fin 256) (r : Fin 16384) (hr : r.val = t.val * 512 + p.val) :
    (iblk m c 0 t : Vec Ideal S512x256 .f32) (ix2 p i) = (V m c main_arg0 : Vec Ideal S16384x256 .f32) (ix2 r i) := by
  obtain ⟨e0, e1, -⟩ := idx_facts t
  unfold iblk
  rw [View.read_apply]
  show V m c main_arg0 _ = V m c main_arg0 (ix2 r i)
  congr 1
  funext a
  apply Fin.ext
  match a with
  | ⟨0, _⟩ => show win0_0.index t (0 : Fin 2) * 512 + 1 * p.val = r.val; rw [e0, hr]; omega
  | ⟨1, _⟩ => show win0_0.index t (1 : Fin 2) * 256 + 1 * i.val = i.val; rw [e1]; omega

/-- WHAT POINT `t` WRITES BACK is block `t` of `Out` of the argument arrays as the region finds them. -/
theorem flushed_eq (c : Dev nD) (t : Fin cfg0.N) :
    (dats (F := Ideal) m 0 c).flushed 4 t = ((cfg0.win 4).blk t).view.read (Elt Ideal)
      (Out (V m c main_arg0) (V m c main_arg1) (V m c main_arg2) (V m c main_arg3)) := by
  show (cfg0.win 4).cut (grid0.coords t) ((dats m 0 c).after 4 t) = _
  rw [after0_4]
  unfold out0_4
  rw [View.canon_unit_zero hz]
  funext y
  obtain ⟨p, q, rfl⟩ : ∃ (p : Fin 512) (q : Fin 256), y = ix2 p q := ⟨y 0, y 1, eq_ix2 y⟩
  have hN : cfg0.N = 32 := N_0
  have ht : t.val < 32 := hN ▸ t.isLt
  obtain ⟨-, -, -, -, -, -, -, -, e0, e1⟩ := idx_facts t
  refine (point_val (V m c main_arg0) (V m c main_arg1) (V m c main_arg2) (V m c main_arg3)
    (iblk m c 0 t) (iblk m c 1 t) (iblk m c 2 t) (iblk m c 3 t) (iblk1_eq m c t) (iblk2_eq m c t) (iblk3_eq m c t)
    ⟨t.val * 512 + p.val, by have := p.isLt; omega⟩ p (fun i => iblk0_apply m c t p i _ rfl) q).trans ?_
  rw [View.read_apply]
  show Out _ _ _ _ _ = Out _ _ _ _ _
  congr 1
  funext a
  apply Fin.ext
  match a with
  | ⟨0, _⟩ => show t.val * 512 + p.val = win0_4.index t (0 : Fin 2) * 512 + 1 * p.val; rw [e0]; omega
  | ⟨1, _⟩ => show q.val = win0_4.index t (1 : Fin 2) * 256 + 1 * q.val; rw [e1]; omega

end Cert.ReferenceIdeal.RefValue

end
-- ==== Proof.RefCover.lean ====
/-
  From the blocks to the result array. The 32 blocks of 512 rows tile the [16384, 256] result array — row `r` lies in the
  block of point `r / 512` — and each point writes back its block of `Out`; so after the region the array is `Out` of the
  argument arrays.
-/
import proofs.«114963_g2000406044886496_pallasbulk_952_15_alg».proof.Proof.RefFlushed

noncomputable section

namespace Cert.ReferenceIdeal.RefValue

open Cert.ReferenceIdeal Cert.ReferenceIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- An index of the result array is in point `t`'s block iff each coordinate is in the block's range on its axis. -/
theorem mem_blk (t : Fin cfg0.N) (i : S16384x256.Idx) :
    i ∈ ((cfg0.win 4).blk t).view.set ↔ ∀ a : Fin 2, win0_4.index t a * S512x256.size a ≤ (i a).val
      ∧ (i a).val < win0_4.index t a * S512x256.size a + S512x256.size a := by
  show i ∈ ((View.whole main_call0_v0).slice (win0_4.rect t)).set ↔ _
  rw [View.set_slice_whole, Rect.mem_set_unit]
  exact Iff.rfl

/-- Every index of the result array is in the block of the point its row falls in: row `r` in point `r / 512`. -/
theorem cover (i : S16384x256.Idx) :
    ∃ t : Fin cfg0.N, (cfg0.win 4).flush t = true ∧ i ∈ ((cfg0.win 4).blk t).view.set := by
  have hi0 : (i 0).val < 16384 := (i 0).isLt
  have hi1 : (i 1).val < 256 := (i 1).isLt
  have hN : cfg0.N = 32 := N_0
  obtain ⟨t, ht⟩ : ∃ t : Fin cfg0.N, t.val = (i 0).val / 512 := ⟨⟨(i 0).val / 512, by rw [hN]; omega⟩, rfl⟩
  obtain ⟨-, -, -, -, -, -, -, -, e0, e1⟩ := idx_facts t
  refine ⟨t, flush0_4 t, ?_⟩
  rw [mem_blk]
  intro a
  match a with
  | ⟨0, _⟩ =>
    show win0_4.index t (0 : Fin 2) * 512 ≤ (i 0).val ∧ (i 0).val < win0_4.index t (0 : Fin 2) * 512 + 512
    rw [e0, ht]; omega
  | ⟨1, _⟩ =>
    show win0_4.index t (1 : Fin 2) * 256 ≤ (i 1).val ∧ (i 1).val < win0_4.index t (1 : Fin 2) * 256 + 256
    rw [e1]; omega

/-- THE RESULT ARRAY after the region: `Out` of the argument arrays. -/
theorem final4 (c : Dev nD) : (dats (F := Ideal) m 0 c).arrAt 4 cfg0.N
    = Out (V m c main_arg0) (V m c main_arg1) (V m c main_arg2) (V m c main_arg3) :=
  (dats m 0 c).arrAt_eq_of_cover 4 (Out (V m c main_arg0) (V m c main_arg1) (V m c main_arg2) (V m c main_arg3))
    (fun t _ => flushed_eq m c t) cover

end Cert.ReferenceIdeal.RefValue

end
-- ==== Proof.RefTail.lean ====
/-
  The two host slices after the region. The result array holds `Out` of the arguments; the first slice keeps its columns
  0 … 127, where `Out` is the head itself (the mean), the second its columns 128 … 255, where `Out` is the clamped head
  (the log-deviation).
-/
import proofs.«114963_g2000406044886496_pallasbulk_952_15_alg».proof.Proof.RefCover
import Idealize.ShloMosaic.Lib.StableHlo.Run
import Idealize.ShloMosaic.Lib.ValueLayout

noncomputable section

namespace Cert.ReferenceIdeal.RefValue

open Cert.ReferenceIdeal Cert.ReferenceIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The mean: the host slice of the columns 0 … 127 of the result array. -/
theorem tail_mu (c : Dev nD) :
    Pipeline.afterTail₀ cfgs (dats (F := Ideal) m) 0 (V0 m) [hostOps1] c main_v0_0
      = Cert.Actor.mu (m ((c.tc : Thread nD τ).loc main_arg0)) (m ((c.tc : Thread nD τ).loc main_arg1))
          (m ((c.tc : Thread nD τ).loc main_arg2)) (m ((c.tc : Thread nD τ).loc main_arg3)) := by
  unfold Pipeline.afterTail₀
  show StableHlo.after hostOps1 _ (Proc.devRef .tc main_v0_0) = _
  after_results
  have hA := (Pipeline.withArrays_arr spec0 launch0.win.arr_inj c (V0 m c) (fun w => (dats (F := Ideal) m 0 c).arrAt w cfg0.N) 4).trans (final4 m c)
  funext j
  obtain ⟨r, k, rfl⟩ : ∃ (r : Fin 16384) (k : Fin 128), j = ix2 r k := ⟨j 0, j 1, eq_ix2 j⟩
  rw [Cert.Actor.mu_apply _ _ _ _ r k ⟨k.val, by have := k.isLt; omega⟩ rfl]
  refine (slice2_axis1_apply 0 (Pipeline.withArrays spec0 c (V0 m c) (fun w => (dats (F := Ideal) m 0 c).arrAt w cfg0.N)
    (Proc.devRef .tc (Pipeline.arrRef spec0 4))) slices_S16384x256_S16384x128_0_0 r k ⟨k.val, by have := k.isLt; omega⟩ (by simp)).trans ?_
  rw [hA, Out_apply, if_neg (by show ¬128 ≤ k.val; have := k.isLt; omega), V_main_arg0, V_main_arg1, V_main_arg2, V_main_arg3]

/-- The log-deviation: the host slice of the columns 128 … 255 of the result array, which are the clamped ones. -/
theorem tail_ls (c : Dev nD) :
    Pipeline.afterTail₀ cfgs (dats (F := Ideal) m) 0 (V0 m) [hostOps1] c main_v0_1
      = Cert.Actor.ls (m ((c.tc : Thread nD τ).loc main_arg0)) (m ((c.tc : Thread nD τ).loc main_arg1))
          (m ((c.tc : Thread nD τ).loc main_arg2)) (m ((c.tc : Thread nD τ).loc main_arg3)) := by
  unfold Pipeline.afterTail₀
  show StableHlo.after hostOps1 _ (Proc.devRef .tc main_v0_1) = _
  after_results
  have hA := (Pipeline.withArrays_arr spec0 launch0.win.arr_inj c (V0 m c) (fun w => (dats (F := Ideal) m 0 c).arrAt w cfg0.N) 4).trans (final4 m c)
  funext j
  obtain ⟨r, k, rfl⟩ : ∃ (r : Fin 16384) (k : Fin 128), j = ix2 r k := ⟨j 0, j 1, eq_ix2 j⟩
  rw [Cert.Actor.ls_apply _ _ _ _ r k ⟨128 + k.val, by have := k.isLt; omega⟩ rfl]
  refine (slice2_axis1_apply 128 (Pipeline.withArrays spec0 c (V0 m c) (fun w => (dats (F := Ideal) m 0 c).arrAt w cfg0.N)
    (Proc.devRef .tc (Pipeline.arrRef spec0 4))) slices_S16384x256_S16384x128_0_128 r k ⟨128 + k.val, by have := k.isLt; omega⟩ rfl).trans ?_
  rw [hA, Out_apply, if_pos (by show 128 ≤ 128 + k.val; omega), V_main_arg0, V_main_arg1, V_main_arg2, V_main_arg3]

end Cert.ReferenceIdeal.RefValue

end
-- ==== Proof.RefRun.lean ====
/-
  The reference's run at the extended reals, read at its two results: every weakly fair execution of @main terminates with
  the first result at the mean and the second at the log-deviation of the four argument arrays, the arguments unchanged.
  The results are buffers no window stages, so the frame run leaves them as the host lines after the region do; the
  arguments are staged inputs, never written back.
-/
import proofs.«114963_g2000406044886496_pallasbulk_952_15_alg».proof.Proof.Gen.ReferenceIdeal.Frame
import proofs.«114963_g2000406044886496_pallasbulk_952_15_alg».proof.Proof.Spec
import proofs.«114963_g2000406044886496_pallasbulk_952_15_alg».proof.Proof.LibBlock
import proofs.«114963_g2000406044886496_pallasbulk_952_15_alg».proof.Proof.RefTail

noncomputable section

namespace Cert.ReferenceIdeal.RefValue

open Cert.ReferenceIdeal Cert.ReferenceIdeal.Gen Idealize.ShloMosaic Idealize.ShloMosaic.TcCoe Idealize.SL.Sem
open Idealize.ShloMosaic.Pipeline (Dat)

/-- The reference's run, read: the two results at the mean and the log-deviation of the four arguments, the arguments
    unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0_0) = Cert.Actor.mu (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v0_1) = Cert.Actor.ls (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨
      ((h c).2 main_v0_0 (Pipeline.mem_restRefs_of main_v0_0 rfl (by decide))).trans (tail_mu m c),
      ((h c).2 main_v0_1 (Pipeline.mem_restRefs_of main_v0_1 rfl (by decide))).trans (tail_ls m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.ReferenceIdeal.RefValue

end
-- ==== Proof.lean ====
/-
  The certificate: a fused actor network (two dense layers with ReLU and a fused head; the second half of the head's
  columns clamped to [-20, 2]) computed by a Pallas kernel over 2048-row blocks in two halves of 1024, with bf16 matrix
  operands cast once per core into buffers it keeps between grid points, against a reference that computes the same
  network over 512-row blocks in f32 and cuts the two results out of one packed array.

  On the extended reals a change of float format is the identity and a matrix product into a zero accumulator is a plain
  sum, so both programs leave, at row `r` and column `q`, the three-layer expression of state row `r` (Proof/Spec.lean):
  the kernel by induction over its grid points (the weight buffers hold the cast weight rows after every point), the
  reference block by block and then through its two slices. The three frames are the generated ones; the idealization
  rewrote nothing, so `preserves` holds trivially.
-/
import proofs.«114963_g2000406044886496_pallasbulk_952_15_alg».proof.Defs
import proofs.«114963_g2000406044886496_pallasbulk_952_15_alg».proof.Proof.Gen.Kernel.Frame
import proofs.«114963_g2000406044886496_pallasbulk_952_15_alg».proof.Proof.Gen.KernelIdeal.Frame
import proofs.«114963_g2000406044886496_pallasbulk_952_15_alg».proof.Proof.Gen.ReferenceIdeal.Frame
import proofs.«114963_g2000406044886496_pallasbulk_952_15_alg».proof.Proof.Gen.Pre_finite_inputs
import proofs.«114963_g2000406044886496_pallasbulk_952_15_alg».proof.Proof.KernelFinal
import proofs.«114963_g2000406044886496_pallasbulk_952_15_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The ideal pass rewrote no operation. -/
theorem preserves : Cert.preserves_Kernel_KernelIdeal := trivial

/-- Both idealized programs end with the mean and the clamped log-deviation of their argument arrays, which agree. -/
theorem algebraic : Cert.algebraic_KernelIdeal_ReferenceIdeal := by
  intro m ρ m' ρ' _ hagree
  refine ⟨fun c => Cert.Actor.mu (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.Actor.ls (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.Body.run m ρ, ?_⟩
  refine (θ_run Cert.ReferenceIdeal.defs _ _).mono (fun r h c => ?_) (Cert.ReferenceIdeal.RefValue.run m' ρ')
  obtain ⟨e0, e1, e2, e3⟩ := hagree c
  obtain ⟨hmu, hls, hrest⟩ := h c
  exact ⟨hmu.trans (by rw [e0, e1, e2, e3]), hls.trans (by rw [e0, e1, e2, e3]), hrest⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
